-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S128x165 : S_.BroadcastsInDim S128x165 (![] : Fin 0 → Fin S128x165.rank)
  reducesTo_S128x165_S_d0_1 : S128x165.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S2x128 .f32) (main_arg12 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S2x128 .f32) (main_arg12 : FVec F S2 .f32) (main_v13 : IVec S_ 1) (main_v16 : IVec S128x165 1) : IVec S_ 1 :=
  let main_c_5 : IVec S_ 1 := constantI S_ 1 1#1
  let main_v17 : IVec S_ 1 := (fun x v => Host.reduce IntOp.andi x v reducesTo_S128x165_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x165 .f32) (main_arg1 : IVec S2x1600000 32) (main_arg2 : FVec F S128x165 .f32) (main_arg3 : FVec F S128 .f32) (main_arg4 : FVec F S128x165 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S2x128 .f32) (main_arg12 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S128x165 .f32 := Host.absf main_arg2
  let main_cst_0 : FVec F S_ .f32 := constant S_ .f32 0x7F800000#32
  let main_v5 : FVec F S128x165 .f32 := broadcastInDim S128x165 ![] bcast_S_S128x165 main_cst_0
  let main_v6 : IVec S128x165 1 := cmpf .olt main_v4 main_v5
  let main_c_1 : IVec S_ 1 := constantI S_ 1 1#1
  let main_v7 : IVec S_ 1 := (fun x v => Host.reduce IntOp.andi x v reducesTo_S128x165_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x165 .f32 := Host.absf main_arg4
  let main_cst_4 : FVec F S_ .f32 := constant S_ .f32 0x7F800000#32
  let main_v15 : FVec F S128x165 .f32 := broadcastInDim S128x165 ![] bcast_S_S128x165 main_cst_4
  let main_v16 : IVec S128x165 1 := cmpf .olt main_v14 main_v15
  fn_part1 (F := F) main_arg5 main_arg6 main_arg7 main_arg8 main_arg9 main_arg10 main_arg11 main_arg12 main_v13 main_v16
-- ==== Kernel.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S100000x1 : Shape := ⟨2, ![100000, 1]⟩
abbrev S165x128 : Shape := ⟨2, ![165, 128]⟩
abbrev S1x128 : Shape := ⟨2, ![1, 128]⟩
abbrev S100000x128 : Shape := ⟨2, ![100000, 128]⟩
abbrev S5000x165 : Shape := ⟨2, ![5000, 165]⟩
abbrev S5000x128 : Shape := ⟨2, ![5000, 128]⟩
abbrev S1600000x128 : Shape := ⟨2, ![1600000, 128]⟩
abbrev S1 : Shape := ⟨1, ![1]⟩
abbrev S100000x2 : Shape := ⟨2, ![100000, 2]⟩

abbrev nBuf : Space → Nat
  | .hbm => 115
  | .vmem => 33
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S128x165, .f32⟩
  | .hbm, ⟨3, _⟩ => ⟨S128, .f32⟩
  | .hbm, ⟨4, _⟩ => ⟨S128x165, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S2x128, .f32⟩
  | .hbm, ⟨12, _⟩ => ⟨S2, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x165, .f32⟩
  | .hbm, ⟨26, _⟩ => ⟨S_, .f32⟩
  | .hbm, ⟨27, _⟩ => ⟨S100000x165, .f32⟩
  | .hbm, ⟨28, _⟩ => ⟨S1600000x1, .i32⟩
  | .hbm, ⟨29, _⟩ => ⟨S100000x165, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S100000x1, .f32⟩
  | .hbm, ⟨34, _⟩ => ⟨S1600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x165, .f32⟩
  | .hbm, ⟨40, _⟩ => ⟨S100000x165, .f32⟩
  | .hbm, ⟨41, _⟩ => ⟨S165x128, .f32⟩
  | .hbm, ⟨42, _⟩ => ⟨S165x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S128x128, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S_, .f32⟩
  | .hbm, ⟨87, _⟩ => ⟨S1600000x1, .f32⟩
  | .hbm, ⟨88, _⟩ => ⟨S_, .f32⟩
  | .hbm, ⟨89, _⟩ => ⟨S100000x1, .f32⟩
  | .hbm, ⟨90, _⟩ => ⟨S1600000x1, .i32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S100000x128, .f32⟩
  | .hbm, ⟨96, _⟩ => ⟨S100000x128, .f32⟩
  | .hbm, ⟨97, _⟩ => ⟨S128x128, .f32⟩
  | .hbm, ⟨98, _⟩ => ⟨S128x128, .f32⟩
  | .hbm, ⟨99, _⟩ => ⟨S1x128, .f32⟩
  | .hbm, ⟨100, _⟩ => ⟨S100000x128, .f32⟩
  | .hbm, ⟨101, _⟩ => ⟨S_, .f32⟩
  | .hbm, ⟨102, _⟩ => ⟨S128x128, .f32⟩
  | .hbm, ⟨103, _⟩ => ⟨S_, .i32⟩
  | .hbm, ⟨104, _⟩ => ⟨S1, .i32⟩
  | .hbm, ⟨105, _⟩ => ⟨S128x128, .f32⟩
  | .hbm, ⟨106, _⟩ => ⟨S_, .f32⟩
  | .hbm, ⟨107, _⟩ => ⟨S128, .f32⟩
  | .hbm, ⟨108, _⟩ => ⟨S_, .i32⟩
  | .hbm, ⟨109, _⟩ => ⟨S1, .i32⟩
  | .hbm, ⟨110, _⟩ => ⟨S128, .f32⟩
  | .hbm, ⟨111, _⟩ => ⟨S128x128, .f32⟩
  | .hbm, ⟨112, _⟩ => ⟨S1x128, .f32⟩
  | .hbm, ⟨113, _⟩ => ⟨S100000x128, .f32⟩
  | .hbm, ⟨114, _⟩ => ⟨S100000x2, .f32⟩
  | .local _ .vmem, ⟨0, _⟩ => ⟨S5000x165, .f32⟩
  | .local _ .vmem, ⟨1, _⟩ => ⟨S5000x165, .f32⟩
  | .local _ .vmem, ⟨2, _⟩ => ⟨S5000x165, .f32⟩
  | .local _ .vmem, ⟨3, _⟩ => ⟨S5000x165, .f32⟩
  | .local _ .vmem, ⟨4, _⟩ => ⟨S165x128, .f32⟩
  | .local _ .vmem, ⟨5, _⟩ => ⟨S1x128, .f32⟩
  | .local _ .vmem, ⟨6, _⟩ => ⟨S165x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_cst_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S165x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S165x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x165_0_1 : S100000x1.BroadcastsInDim S100000x165 (![0, 1] : Fin 2 → Fin S100000x165.rank)
  transposes_S128x165_S165x128_1_0 : S128x165.Transposes [1, 0] S165x128
  shapeCasts_S128_S1x128 : S128.ShapeCasts S1x128
  inb_S5000x165_S5000x165_0_0 : ∀ a, (![0, 0] : Fin 2 → Nat) a + S5000x165.size a ≤ S5000x165.size a
  h_S5000x165 : 0 < S5000x165.numel
  shapeCasts_S5000x165_S5000x165 : S5000x165.ShapeCasts S5000x165
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  shapeCasts_S165x128_S165x128 : S165x128.ShapeCasts S165x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  slices_S100000x128_S100000x2_0_0 : S100000x128.Slices ![0, 0] S100000x2
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  scatter_S100000x1_S1600000x1_S1600000x1_1_0_0_1_wf : ScatterDims.WF S100000x1 S1600000x1 S1600000x1 [1] [0] [0] 1
  dot_S5000x165_S165x128_S5000x128_1_0_0_1_n_n_wf : DotDims.WF S5000x165 S165x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S128x128_S1_S2x128_01_n_0_0_wf : ScatterDims.WF S128x128 S1 S2x128 [0, 1] [] [0] 0
  scatter_S128_S1_S2_0_n_0_0_wf : ScatterDims.WF S128 S1 S2 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x165.size a ≤ S100000x165.size a
  hwx0_0 : ∀ i : grid0.Coords, EltTy.bits .f32 = 32 ∨ (Rect.block (s := S100000x165) S5000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x165.size a ≤ S100000x165.size a
  hwx0_1 : ∀ i : grid0.Coords, EltTy.bits .f32 = 32 ∨ (Rect.block (s := S100000x165) S5000x165.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S165x128.size a ≤ S165x128.size a
  hwx0_2 : ∀ i : grid0.Coords, EltTy.bits .f32 = 32 ∨ (Rect.block (s := S165x128) S165x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S165x128.size a ≤ S165x128.size a
  hwx0_4 : ∀ i : grid0.Coords, EltTy.bits .f32 = 32 ∨ (Rect.block (s := S165x128) S165x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x165_S165x128_S5000x128_1_0_0_1_n_n : DotDims S5000x165 S165x128 S5000x128 where
  lhsContracting := [1]
  rhsContracting := [0]
  lhsNonContracting := [0]
  rhsNonContracting := [1]
  lhsBatch := []
  rhsBatch := []
  wf := dot_S5000x165_S165x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S2x128_01_n_0_0 : ScatterDims S128x128 S1 S2x128 where
  updateWindowDims := [0, 1]
  insertedWindowDims := []
  scatterDimsToOperandDims := [0]
  indexVectorDim := 0
  wf := scatter_S128x128_S1_S2x128_01_n_0_0_wf
def scatter_S128_S1_S2_0_n_0_0 : ScatterDims S128 S1 S2 where
  updateWindowDims := [0]
  insertedWindowDims := []
  scatterDimsToOperandDims := [0]
  indexVectorDim := 0
  wf := scatter_S128_S1_S2_0_n_0_0_wf

abbrev win0_0 : Pipeline.Window sig grid0 :=
  Pipeline.Window.ofSpec (Memref.whole main_v21) S5000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S165x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S165x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S100000x1 : Shape := ⟨2, ![100000, 1]⟩
abbrev S165x128 : Shape := ⟨2, ![165, 128]⟩
abbrev S100000x128 : Shape := ⟨2, ![100000, 128]⟩
abbrev S1x128 : Shape := ⟨2, ![1, 128]⟩
abbrev S1600000x128 : Shape := ⟨2, ![1600000, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S128x165, .f32⟩
  | .hbm, ⟨3, _⟩ => ⟨S128, .f32⟩
  | .hbm, ⟨4, _⟩ => ⟨S128x165, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S2x128, .f32⟩
  | .hbm, ⟨12, _⟩ => ⟨S2, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x165, .f32⟩
  | .hbm, ⟨26, _⟩ => ⟨S_, .f32⟩
  | .hbm, ⟨27, _⟩ => ⟨S100000x165, .f32⟩
  | .hbm, ⟨28, _⟩ => ⟨S1600000x1, .i32⟩
  | .hbm, ⟨29, _⟩ => ⟨S100000x165, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S100000x1, .f32⟩
  | .hbm, ⟨34, _⟩ => ⟨S1600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x165, .f32⟩
  | .hbm, ⟨40, _⟩ => ⟨S100000x165, .f32⟩
  | .hbm, ⟨41, _⟩ => ⟨S165x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S165x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000x1, .f32⟩
  | .hbm, ⟨67, _⟩ => ⟨S_, .f32⟩
  | .hbm, ⟨68, _⟩ => ⟨S100000x1, .f32⟩
  | .hbm, ⟨69, _⟩ => ⟨S1600000x1, .i32⟩
  | .hbm, ⟨70, _⟩ => ⟨S100000x1, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000x1, .f32⟩
  | .hbm, ⟨102, _⟩ => ⟨S_, .f32⟩
  | .hbm, ⟨103, _⟩ => ⟨S100000x1, .f32⟩
  | .hbm, ⟨104, _⟩ => ⟨S1600000x1, .i32⟩
  | .hbm, ⟨105, _⟩ => ⟨S100000x1, .f32⟩
  | .hbm, ⟨106, _⟩ => ⟨S_, .f32⟩
  | .hbm, ⟨107, _⟩ => ⟨S100000x1, .f32⟩
  | .hbm, ⟨108, _⟩ => ⟨S100000x1, .f32⟩
  | .hbm, ⟨109, _⟩ => ⟨S100000x128, .f32⟩
  | .hbm, ⟨110, _⟩ => ⟨S100000x128, .f32⟩
  | .hbm, ⟨111, _⟩ => ⟨S128x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S128x128, .f32⟩
  | .hbm, ⟨117, _⟩ => ⟨S100000x128, .f32⟩
  | .hbm, ⟨118, _⟩ => ⟨S100000x128, .f32⟩
  | .hbm, ⟨119, _⟩ => ⟨S128x2, .f32⟩
  | .hbm, ⟨120, _⟩ => ⟨S100000x2, .f32⟩
  | .hbm, ⟨121, _⟩ => ⟨S1x2, .f32⟩
  | .hbm, ⟨122, _⟩ => ⟨S100000x2, .f32⟩
  | .hbm, ⟨123, _⟩ => ⟨S100000x2, .f32⟩
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x165_0_1 : S100000x1.BroadcastsInDim S100000x165 (![0, 1] : Fin 2 → Fin S100000x165.rank)
  transposes_S128x165_S165x128_1_0 : S128x165.Transposes [1, 0] S165x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  scatter_S100000x1_S1600000x1_S1600000x1_1_0_0_1_wf : ScatterDims.WF S100000x1 S1600000x1 S1600000x1 [1] [0] [0] 1
  dot_S100000x165_S165x128_S100000x128_1_0_0_1_n_n_wf : DotDims.WF S100000x165 S165x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LayerSpec.lean ====
/-
  What one SAGE layer and the output projection compute, as whole-array functions on the extended reals.

  A layer takes the neighbour means `mean` and the node features `x` (both [N, D]), two weight matrices already
  transposed to [D, H], and a bias row [1, H], and returns the [N, H] array whose entry (r, q) is
      max ((Σ_k mean[r,k] · wl[k,q] + Σ_k x[r,k] · wr[k,q]) + b[0,q]) 0
  (the last layer without the `max`). Entry (r, q) only reads row r of `mean` and `x`, so a row tiling of the
  output reads the same row tiling of the two inputs and all of the weights. The projection is the same with one
  matrix and no `max`.
-/
import Idealize.ShloMosaic.PureOps.Ideal
import Idealize.ShloMosaic.Lib.ValueIdx

noncomputable section

namespace Cert.Sage

open Idealize.ShloMosaic

/-- node features of the first layer: [100000, 165] -/
abbrev SN165 : Shape := ⟨2, ![100000, 165]⟩
/-- hidden features: [100000, 128] -/
abbrev SN128 : Shape := ⟨2, ![100000, 128]⟩
/-- a transposed first-layer weight: [165, 128] -/
abbrev SW165 : Shape := ⟨2, ![165, 128]⟩
/-- a transposed hidden weight: [128, 128] -/
abbrev SW128 : Shape := ⟨2, ![128, 128]⟩
/-- a bias row: [1, 128] -/
abbrev SB128 : Shape := ⟨2, ![1, 128]⟩

/-- (r, k): row of the output index, a contraction position, in a [100000, 165] array. -/
abbrev row165 (i : SN128.Idx) (k : Fin 165) : SN165.Idx := fun a => match a with
  | ⟨0, _⟩ => ⟨(i 0).val, (i 0).isLt⟩
  | ⟨1, _⟩ => ⟨k.val, k.isLt⟩
/-- (k, q): a contraction position, column of the output index, in a [165, 128] array. -/
abbrev col165 (i : SN128.Idx) (k : Fin 165) : SW165.Idx := fun a => match a with
  | ⟨0, _⟩ => ⟨k.val, k.isLt⟩
  | ⟨1, _⟩ => ⟨(i 1).val, (i 1).isLt⟩
/-- (r, k) in a [100000, 128] array. -/
abbrev row128 (i : SN128.Idx) (k : Fin 128) : SN128.Idx := fun a => match a with
  | ⟨0, _⟩ => ⟨(i 0).val, (i 0).isLt⟩
  | ⟨1, _⟩ => ⟨k.val, k.isLt⟩
/-- (k, q) in a [128, 128] array. -/
abbrev col128 (i : SN128.Idx) (k : Fin 128) : SW128.Idx := fun a => match a with
  | ⟨0, _⟩ => ⟨k.val, k.isLt⟩
  | ⟨1, _⟩ => ⟨(i 1).val, (i 1).isLt⟩
/-- (0, q) in the bias row. -/
abbrev biasAt (i : SN128.Idx) : SB128.Idx := fun a => match a with
  | ⟨0, _⟩ => ⟨0, Nat.one_pos⟩
  | ⟨1, _⟩ => ⟨(i 1).val, (i 1).isLt⟩

/-- The float zero the rectifier compares with, as the word both programs print. -/
abbrev zeroF : EReal := Ideal.ofBits .f32 0x00000000#32

/-- The affine part of a layer over 165 input features. -/
def affine165 (mean x : SN165.Idx → EReal) (wl : SW165.Idx → EReal) (b : SB128.Idx → EReal) (wr : SW165.Idx → EReal) :
    SN128.Idx → EReal := fun i =>
  (∑ k : Fin 165, mean (row165 i k) * wl (col165 i k) + ∑ k : Fin 165, x (row165 i k) * wr (col165 i k)) + b (biasAt i)

/-- The affine part of a layer over 128 input features. -/
def affine128 (mean x : SN128.Idx → EReal) (wl : SW128.Idx → EReal) (b : SB128.Idx → EReal) (wr : SW128.Idx → EReal) :
    SN128.Idx → EReal := fun i =>
  (∑ k : Fin 128, mean (row128 i k) * wl (col128 i k) + ∑ k : Fin 128, x (row128 i k) * wr (col128 i k)) + b (biasAt i)

/-- A rectified layer over 165 input features. -/
def layer165 (mean x : SN165.Idx → EReal) (wl : SW165.Idx → EReal) (b : SB128.Idx → EReal) (wr : SW165.Idx → EReal) :
    SN128.Idx → EReal := fun i => max (affine165 mean x wl b wr i) zeroF

/-- A rectified layer over 128 input features. -/
def layer128 (mean x : SN128.Idx → EReal) (wl : SW128.Idx → EReal) (b : SB128.Idx → EReal) (wr : SW128.Idx → EReal) :
    SN128.Idx → EReal := fun i => max (affine128 mean x wl b wr i) zeroF

/-- The projection: one matrix product and a bias row, over 128 (padded) output columns. -/
def proj128 (h : SN128.Idx → EReal) (w : SW128.Idx → EReal) (b : SB128.Idx → EReal) : SN128.Idx → EReal := fun i =>
  (∑ k : Fin 128, h (row128 i k) * w (col128 i k)) + b (biasAt i)

/-- The two programs group the three summands of a layer differently; on the extended reals addition is commutative
    and associative (also at the infinities), so the groupings agree. -/
theorem add_regroup (a b c : EReal) : (a + c) + b = (a + b) + c := add_right_comm a c b

end Cert.Sage

end
-- ==== Proof.Layer0.lean ====
/-
  The first SAGE layer's region, read as a value.

  The region tiles its [100000, 128] output by 20 row blocks of 5000. At point t the body loads block t of the
  neighbour means and of the node features ([5000, 165] each) and the whole of the two transposed weight matrices
  ([165, 128]) and of the bias row ([1, 128]), and stores, at (r, q) of its block,
      max ((Σ_k mean[r,k] · wl[k,q] + Σ_k x[r,k] · wr[k,q]) + b[0,q]) 0.
  Row r of block t is row 5000·t + r of the arrays, so what point t writes back is block t of ONE function of the
  whole arrays (`Cert.Sage.layer165`), and the 20 blocks tile the output: after the region the output array IS that
  function of the arrays the region found. All of this is stated at any contents `V` of the buffers at region entry.
-/
import proofs.«172675_j58042188038363_1_alg».proof.Proof.Gen.KernelIdeal.Frame
import proofs.«172675_j58042188038363_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.Pipeline (Dat)
open Cert.Sage

/-! ## Inside one block: the body's arithmetic at an index -/

/-- (r, k) in a [5000, 165] block. -/
abbrev brow (j : S5000x128.Idx) (k : Fin 165) : S5000x165.Idx := fun a => match a with
  | ⟨0, _⟩ => ⟨(j 0).val, (j 0).isLt⟩
  | ⟨1, _⟩ => ⟨k.val, k.isLt⟩
/-- (k, q) in a [165, 128] block. -/
abbrev bcol (j : S5000x128.Idx) (k : Fin 165) : S165x128.Idx := fun a => match a with
  | ⟨0, _⟩ => ⟨k.val, k.isLt⟩
  | ⟨1, _⟩ => ⟨(j 1).val, (j 1).isLt⟩
/-- (0, q) in the bias block. -/
abbrev bbias (j : S5000x128.Idx) : S1x128.Idx := fun a => match a with
  | ⟨0, _⟩ => ⟨0, Nat.one_pos⟩
  | ⟨1, _⟩ => ⟨(j 1).val, (j 1).isLt⟩

theorem lhs_0 (j : S5000x128.Idx) (q : dot_S5000x165_S165x128_S5000x128_1_0_0_1_n_n.contr.Idx) :
    (dot_S5000x165_S165x128_S5000x128_1_0_0_1_n_n.lhsIdx j q 0).val = (j 0).val := by
  unfold DotDims.lhsIdx
  rw [dif_neg (show ¬(0 : Fin S5000x165.rank) ∈ dot_S5000x165_S165x128_S5000x128_1_0_0_1_n_n.lhsBatch by decide), dif_pos (show (0 : Fin S5000x165.rank) ∈ dot_S5000x165_S165x128_S5000x128_1_0_0_1_n_n.lhsNonContracting by decide)]
  rfl
theorem lhs_1 (j : S5000x128.Idx) (q : dot_S5000x165_S165x128_S5000x128_1_0_0_1_n_n.contr.Idx) :
    (dot_S5000x165_S165x128_S5000x128_1_0_0_1_n_n.lhsIdx j q 1).val = (q ⟨0, by decide⟩).val :=
  dot_S5000x165_S165x128_S5000x128_1_0_0_1_n_n.lhsIdx_val_of_single rfl j q
theorem rhs_0 (j : S5000x128.Idx) (q : dot_S5000x165_S165x128_S5000x128_1_0_0_1_n_n.contr.Idx) :
    (dot_S5000x165_S165x128_S5000x128_1_0_0_1_n_n.rhsIdx j q 0).val = (q ⟨0, by decide⟩).val :=
  dot_S5000x165_S165x128_S5000x128_1_0_0_1_n_n.rhsIdx_val_of_single rfl j q
theorem rhs_1 (j : S5000x128.Idx) (q : dot_S5000x165_S165x128_S5000x128_1_0_0_1_n_n.contr.Idx) :
    (dot_S5000x165_S165x128_S5000x128_1_0_0_1_n_n.rhsIdx j q 1).val = (j 1).val := by
  unfold DotDims.rhsIdx
  rw [dif_neg (show ¬(1 : Fin S165x128.rank) ∈ dot_S5000x165_S165x128_S5000x128_1_0_0_1_n_n.rhsBatch by decide), dif_pos (show (1 : Fin S165x128.rank) ∈ dot_S5000x165_S165x128_S5000x128_1_0_0_1_n_n.rhsNonContracting by decide)]
  rfl

/-- A block product into a zero accumulator, read at (r, q): the sum over the 165 contraction positions of the
    left block's row r times the right block's column q. -/
theorem matmul_at (l : FVec Ideal S5000x165 .bf16) (r : FVec Ideal S165x128 .bf16) (j : S5000x128.Idx) :
    matmul (F := Ideal) dot_S5000x165_S165x128_S5000x128_1_0_0_1_n_n none l r (constant (F := Ideal) S5000x128 .f32 0x00000000#32) j
      = ∑ k : Fin 165, l (brow j k) * r (bcol j k) := by
  simp only [matmul]
  rw [Ideal.matmul_constant_zero_apply, ← Equiv.sum_comp (ValueIdx.contrEquiv1 dot_S5000x165_S165x128_S5000x128_1_0_0_1_n_n 165 rfl rfl).symm]
  refine Finset.sum_congr rfl fun k _ => ?_
  have hk := ValueIdx.contrEquiv1_symm_val dot_S5000x165_S165x128_S5000x128_1_0_0_1_n_n 165 rfl rfl k
  have el : dot_S5000x165_S165x128_S5000x128_1_0_0_1_n_n.lhsIdx j ((ValueIdx.contrEquiv1 dot_S5000x165_S165x128_S5000x128_1_0_0_1_n_n 165 rfl rfl).symm k) = brow j k := funext fun a => Fin.ext (by
    match a with
    | ⟨0, _⟩ => exact lhs_0 _ _
    | ⟨1, _⟩ => exact (lhs_1 _ _).trans hk)
  have er : dot_S5000x165_S165x128_S5000x128_1_0_0_1_n_n.rhsIdx j ((ValueIdx.contrEquiv1 dot_S5000x165_S165x128_S5000x128_1_0_0_1_n_n 165 rfl rfl).symm k) = bcol j k := funext fun a => Fin.ext (by
    match a with
    | ⟨0, _⟩ => exact (rhs_0 _ _).trans hk
    | ⟨1, _⟩ => exact rhs_1 _ _)
  rw [el, er]

/-- The bias row broadcast down the block, read at (r, q), is the row's entry q. -/
theorem bias_at (b : Vec Ideal S1x128 .f32) (j : S5000x128.Idx) :
    broadcastTo S5000x128 (shapeCast S1x128 b shapeCasts_S1x128_S1x128) broadcasts_S1x128_S5000x128 j = b (bbias j) := by
  rw [shapeCast_self]
  exact broadcastTo_apply b broadcasts_S1x128_S5000x128 j (bbias j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The body's one stored value at (r, q): the two block products added, the bias row added, rectified.
    (Rounding the operands to bf16 is the identity on the extended reals.) -/
theorem pay_at (x0 x1 : Vec Ideal S5000x165 .f32) (wl wr : Vec Ideal S165x128 .f32) (b : Vec Ideal S1x128 .f32) (j : S5000x128.Idx) :
    k0_pay1 (F := Ideal) x0 x1 wl wr b j
      = max ((∑ k : Fin 165, x0 (brow j k) * wl (bcol j k) + ∑ k : Fin 165, x1 (brow j k) * wr (bcol j k)) + b (bbias j)) zeroF := by
  unfold k0_pay1
  rw [ValueIdx.maximumf_apply, ValueIdx.addf_apply, ValueIdx.addf_apply, matmul_at, matmul_at, bias_at]
  simp only [ValueIdx.truncf_apply, shapeCast_self, ValueIdx.broadcast_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-tiled inputs and the output sit at block row t,
    the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of block t of the neighbour means is row 5000·t + r of the array. -/
theorem read_mean (c : Dev nD) (t : Fin cfg0.N) (j : S5000x128.Idx) (k : Fin 165) :
    iblk0 V c 0 t (brow j k) = V c main_v21 (row165 (((cfg0.win 5).blk t).view.emb j) k) := by
  obtain ⟨e00, e01, e10, e11, e20, e21, e30, e31, e40, e41, e50, e51⟩ := idx_facts t
  show V c main_v21 (((cfg0.win 0).blk t).view.emb (brow j k)) = V c main_v21 _
  refine congrArg (V c main_v21) (funext fun a => Fin.ext ?_)
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 165 + 1 * k.val = k.val; omega

/-- The same for the node features. -/
theorem read_x (c : Dev nD) (t : Fin cfg0.N) (j : S5000x128.Idx) (k : Fin 165) :
    iblk0 V c 1 t (brow j k) = V c main_arg0 (row165 (((cfg0.win 5).blk t).view.emb j) k) := by
  obtain ⟨e00, e01, e10, e11, e20, e21, e30, e31, e40, e41, e50, e51⟩ := idx_facts t
  show V c main_arg0 (((cfg0.win 1).blk t).view.emb (brow j k)) = V c main_arg0 _
  refine congrArg (V c main_arg0) (funext fun a => Fin.ext ?_)
  match a with
  | ⟨0, _⟩ => show win0_1.index t (0 : Fin 2) * 5000 + 1 * (j 0).val = win0_5.index t (0 : Fin 2) * 5000 + 1 * (j 0).val; omega
  | ⟨1, _⟩ => show win0_1.index t (1 : Fin 2) * 165 + 1 * k.val = k.val; omega

/-- Every point reads the whole of the first weight matrix. -/
theorem read_wl (c : Dev nD) (t : Fin cfg0.N) (j : S5000x128.Idx) (k : Fin 165) :
    iblk0 V c 2 t (bcol j k) = V c main_v22 (col165 (((cfg0.win 5).blk t).view.emb j) k) := by
  obtain ⟨e00, e01, e10, e11, e20, e21, e30, e31, e40, e41, e50, e51⟩ := idx_facts t
  show V c main_v22 (((cfg0.win 2).blk t).view.emb (bcol j k)) = V c main_v22 _
  refine congrArg (V c main_v22) (funext fun a => Fin.ext ?_)
  match a with
  | ⟨0, _⟩ => show win0_2.index t (0 : Fin 2) * 165 + 1 * k.val = k.val; omega
  | ⟨1, _⟩ => show win0_2.index t (1 : Fin 2) * 128 + 1 * (j 1).val = win0_5.index t (1 : Fin 2) * 128 + 1 * (j 1).val; omega

/-- … and of the second. -/
theorem read_wr (c : Dev nD) (t : Fin cfg0.N) (j : S5000x128.Idx) (k : Fin 165) :
    iblk0 V c 4 t (bcol j k) = V c main_v23 (col165 (((cfg0.win 5).blk t).view.emb j) k) := by
  obtain ⟨e00, e01, e10, e11, e20, e21, e30, e31, e40, e41, e50, e51⟩ := idx_facts t
  show V c main_v23 (((cfg0.win 4).blk t).view.emb (bcol j k)) = V c main_v23 _
  refine congrArg (V c main_v23) (funext fun a => Fin.ext ?_)
  match a with
  | ⟨0, _⟩ => show win0_4.index t (0 : Fin 2) * 165 + 1 * k.val = k.val; omega
  | ⟨1, _⟩ => show win0_4.index t (1 : Fin 2) * 128 + 1 * (j 1).val = win0_5.index t (1 : Fin 2) * 128 + 1 * (j 1).val; omega

/-- … and the whole bias row. -/
theorem read_b (c : Dev nD) (t : Fin cfg0.N) (j : S5000x128.Idx) :
    iblk0 V c 3 t (bbias j) = V c main_v24 (biasAt (((cfg0.win 5).blk t).view.emb j)) := by
  obtain ⟨e00, e01, e10, e11, e20, e21, e30, e31, e40, e41, e50, e51⟩ := idx_facts t
  show V c main_v24 (((cfg0.win 3).blk t).view.emb (bbias j)) = V c main_v24 _
  refine congrArg (V c main_v24) (funext fun a => Fin.ext ?_)
  match a with
  | ⟨0, _⟩ => show win0_3.index t (0 : Fin 2) * 1 + 1 * 0 = 0; omega
  | ⟨1, _⟩ => show win0_3.index t (1 : Fin 2) * 128 + 1 * (j 1).val = win0_5.index t (1 : Fin 2) * 128 + 1 * (j 1).val; omega

/-- What point t writes back is block t of the layer's whole-array function of the arrays the region finds. -/
theorem flushed_eq (c : Dev nD) (t : Fin cfg0.N) :
    (dat0 V c).flushed 5 t = ((cfg0.win 5).blk t).view.read (Elt Ideal)
      (layer165 (V c main_v21) (V c main_arg0) (V c main_v22) (V c main_v24) (V c main_v23)) := by
  show (cfg0.win 5).cut (grid0.coords t) ((dat0 V c).after 5 t) = _
  rw [after0_5]
  unfold out0_5
  rw [View.canon_unit_zero hz]
  simp only [View.ld_unit_zero (S := S5000x165) hz, View.ld_unit_zero (S := S165x128) hz, View.ld_unit_zero (S := S1x128) hz]
  funext j
  show k0_pay1 (F := Ideal) (iblk0 V c 0 t) (iblk0 V c 1 t) (iblk0 V c 2 t) (iblk0 V c 4 t) (iblk0 V c 3 t) j
    = layer165 (V c main_v21) (V c main_arg0) (V c main_v22) (V c main_v24) (V c main_v23) (((cfg0.win 5).blk t).view.emb j)
  refine (pay_at (iblk0 V c 0 t) (iblk0 V c 1 t) (iblk0 V c 2 t) (iblk0 V c 4 t) (iblk0 V c 3 t) j).trans ?_
  unfold layer165 affine165
  refine congrArg₂ max (congrArg₂ (· + ·) (congrArg₂ (· + ·) (Finset.sum_congr rfl fun k _ => ?_) (Finset.sum_congr rfl fun k _ => ?_)) ?_) rfl
  · rw [read_mean V c t j k, read_wl V c t j k]
  · rw [read_x V c t j k, read_wr V c t j k]
  · exact read_b V c t j

/-- An index is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Row r lies in the block of point r / 5000: the 20 blocks tile the array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show _ < grid0.N; rw [hN]; omega
  obtain ⟨e00, e01, e10, e11, e20, e21, e30, e31, e40, e41, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- After the region, its output array is the layer's function of the arrays the region found. -/
theorem arr (c : Dev nD) : (dat0 V c).arrAt 5 cfg0.N
    = layer165 (V c main_v21) (V c main_arg0) (V c main_v22) (V c main_v24) (V c main_v23) :=
  (dat0 V c).arrAt_eq_of_cover 5 _ (fun t _ => flushed_eq V c t) cover

end Cert.KernelIdeal.Layer0

end
-- ==== Proof.Layer1.lean ====
/-
  The second SAGE layer's region, read as a value.

  The region tiles its [100000, 128] output by 20 row blocks of 5000. At point t the body loads block t of the
  neighbour means and of the node features ([5000, 128] each) and the whole of the two transposed weight matrices
  ([128, 128]) and of the bias row ([1, 128]), and stores, at (r, q) of its block,
      max ((Σ_k mean[r,k] · wl[k,q] + Σ_k x[r,k] · wr[k,q]) + b[0,q]) 0.
  Row r of block t is row 5000·t + r of the arrays, so what point t writes back is block t of ONE function of the
  whole arrays (`Cert.Sage.layer128`), and the 20 blocks tile the output: after the region the output array IS that
  function of the arrays the region found. All of this is stated at any contents `V` of the buffers at region entry.
-/
import proofs.«172675_j58042188038363_1_alg».proof.Proof.Gen.KernelIdeal.Frame
import proofs.«172675_j58042188038363_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)
open Cert.Sage

/-! ## Inside one block: the body's arithmetic at an index -/

/-- (r, k) in a [5000, 128] block. -/
abbrev brow (j : S5000x128.Idx) (k : Fin 128) : S5000x128.Idx := fun a => match a with
  | ⟨0, _⟩ => ⟨(j 0).val, (j 0).isLt⟩
  | ⟨1, _⟩ => ⟨k.val, k.isLt⟩
/-- (k, q) in a [128, 128] block. -/
abbrev bcol (j : S5000x128.Idx) (k : Fin 128) : S128x128.Idx := fun a => match a with
  | ⟨0, _⟩ => ⟨k.val, k.isLt⟩
  | ⟨1, _⟩ => ⟨(j 1).val, (j 1).isLt⟩
/-- (0, q) in the bias block. -/
abbrev bbias (j : S5000x128.Idx) : S1x128.Idx := fun a => match a with
  | ⟨0, _⟩ => ⟨0, Nat.one_pos⟩
  | ⟨1, _⟩ => ⟨(j 1).val, (j 1).isLt⟩

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into a zero accumulator, read at (r, q): the sum over the 128 contraction positions of the
    left block's row r times the right block's column q. -/
theorem matmul_at (l : FVec Ideal S5000x128 .bf16) (r : FVec Ideal S128x128 .bf16) (j : S5000x128.Idx) :
    matmul (F := Ideal) dot_S5000x128_S128x128_S5000x128_1_0_0_1_n_n none l r (constant (F := Ideal) S5000x128 .f32 0x00000000#32) j
      = ∑ k : Fin 128, l (brow j k) * r (bcol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_0 _ _).trans hk
    | ⟨1, _⟩ => exact rhs_1 _ _)
  rw [el, er]

/-- The bias row broadcast down the block, read at (r, q), is the row's entry q. -/
theorem bias_at (b : Vec Ideal S1x128 .f32) (j : S5000x128.Idx) :
    broadcastTo S5000x128 (shapeCast S1x128 b shapeCasts_S1x128_S1x128) broadcasts_S1x128_S5000x128 j = b (bbias j) := by
  rw [shapeCast_self]
  exact broadcastTo_apply b broadcasts_S1x128_S5000x128 j (bbias j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The body's one stored value at (r, q): the two block products added, the bias row added, rectified.
    (Rounding the operands to bf16 is the identity on the extended reals.) -/
theorem pay_at (x0 x1 : Vec Ideal S5000x128 .f32) (wl wr : Vec Ideal S128x128 .f32) (b : Vec Ideal S1x128 .f32) (j : S5000x128.Idx) :
    k1_pay1 (F := Ideal) x0 x1 wl wr b j
      = max ((∑ k : Fin 128, x0 (brow j k) * wl (bcol j k) + ∑ k : Fin 128, x1 (brow j k) * wr (bcol j k)) + b (bbias j)) zeroF := by
  unfold k1_pay1
  rw [ValueIdx.maximumf_apply, ValueIdx.addf_apply, ValueIdx.addf_apply, matmul_at, matmul_at, bias_at]
  simp only [ValueIdx.truncf_apply, shapeCast_self, ValueIdx.broadcast_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-tiled inputs and the output sit at block row t,
    the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of block t of the neighbour means is row 5000·t + r of the array. -/
theorem read_mean (c : Dev nD) (t : Fin cfg1.N) (j : S5000x128.Idx) (k : Fin 128) :
    iblk1 V c 0 t (brow j k) = V c main_v43 (row128 (((cfg1.win 5).blk t).view.emb j) k) := by
  obtain ⟨e00, e01, e10, e11, e20, e21, e30, e31, e40, e41, e50, e51⟩ := idx_facts t
  show V c main_v43 (((cfg1.win 0).blk t).view.emb (brow j k)) = V c main_v43 _
  refine congrArg (V c main_v43) (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * k.val = k.val; omega

/-- The same for the node features. -/
theorem read_x (c : Dev nD) (t : Fin cfg1.N) (j : S5000x128.Idx) (k : Fin 128) :
    iblk1 V c 1 t (brow j k) = V c main_v25 (row128 (((cfg1.win 5).blk t).view.emb j) k) := by
  obtain ⟨e00, e01, e10, e11, e20, e21, e30, e31, e40, e41, e50, e51⟩ := idx_facts t
  show V c main_v25 (((cfg1.win 1).blk t).view.emb (brow j k)) = V c main_v25 _
  refine congrArg (V c main_v25) (funext fun a => Fin.ext ?_)
  match a with
  | ⟨0, _⟩ => show win1_1.index t (0 : Fin 2) * 5000 + 1 * (j 0).val = win1_5.index t (0 : Fin 2) * 5000 + 1 * (j 0).val; omega
  | ⟨1, _⟩ => show win1_1.index t (1 : Fin 2) * 128 + 1 * k.val = k.val; omega

/-- Every point reads the whole of the first weight matrix. -/
theorem read_wl (c : Dev nD) (t : Fin cfg1.N) (j : S5000x128.Idx) (k : Fin 128) :
    iblk1 V c 2 t (bcol j k) = V c main_v44 (col128 (((cfg1.win 5).blk t).view.emb j) k) := by
  obtain ⟨e00, e01, e10, e11, e20, e21, e30, e31, e40, e41, e50, e51⟩ := idx_facts t
  show V c main_v44 (((cfg1.win 2).blk t).view.emb (bcol j k)) = V c main_v44 _
  refine congrArg (V c main_v44) (funext fun a => Fin.ext ?_)
  match a with
  | ⟨0, _⟩ => show win1_2.index t (0 : Fin 2) * 128 + 1 * k.val = k.val; omega
  | ⟨1, _⟩ => show win1_2.index t (1 : Fin 2) * 128 + 1 * (j 1).val = win1_5.index t (1 : Fin 2) * 128 + 1 * (j 1).val; omega

/-- … and of the second. -/
theorem read_wr (c : Dev nD) (t : Fin cfg1.N) (j : S5000x128.Idx) (k : Fin 128) :
    iblk1 V c 4 t (bcol j k) = V c main_v45 (col128 (((cfg1.win 5).blk t).view.emb j) k) := by
  obtain ⟨e00, e01, e10, e11, e20, e21, e30, e31, e40, e41, e50, e51⟩ := idx_facts t
  show V c main_v45 (((cfg1.win 4).blk t).view.emb (bcol j k)) = V c main_v45 _
  refine congrArg (V c main_v45) (funext fun a => Fin.ext ?_)
  match a with
  | ⟨0, _⟩ => show win1_4.index t (0 : Fin 2) * 128 + 1 * k.val = k.val; omega
  | ⟨1, _⟩ => show win1_4.index t (1 : Fin 2) * 128 + 1 * (j 1).val = win1_5.index t (1 : Fin 2) * 128 + 1 * (j 1).val; omega

/-- … and the whole bias row. -/
theorem read_b (c : Dev nD) (t : Fin cfg1.N) (j : S5000x128.Idx) :
    iblk1 V c 3 t (bbias j) = V c main_v46 (biasAt (((cfg1.win 5).blk t).view.emb j)) := by
  obtain ⟨e00, e01, e10, e11, e20, e21, e30, e31, e40, e41, e50, e51⟩ := idx_facts t
  show V c main_v46 (((cfg1.win 3).blk t).view.emb (bbias j)) = V c main_v46 _
  refine congrArg (V c main_v46) (funext fun a => Fin.ext ?_)
  match a with
  | ⟨0, _⟩ => show win1_3.index t (0 : Fin 2) * 1 + 1 * 0 = 0; omega
  | ⟨1, _⟩ => show win1_3.index t (1 : Fin 2) * 128 + 1 * (j 1).val = win1_5.index t (1 : Fin 2) * 128 + 1 * (j 1).val; omega

/-- What point t writes back is block t of the layer's whole-array function of the arrays the region finds. -/
theorem flushed_eq (c : Dev nD) (t : Fin cfg1.N) :
    (dat1 V c).flushed 5 t = ((cfg1.win 5).blk t).view.read (Elt Ideal)
      (layer128 (V c main_v43) (V c main_v25) (V c main_v44) (V c main_v46) (V c main_v45)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  show k1_pay1 (F := Ideal) (iblk1 V c 0 t) (iblk1 V c 1 t) (iblk1 V c 2 t) (iblk1 V c 4 t) (iblk1 V c 3 t) j
    = layer128 (V c main_v43) (V c main_v25) (V c main_v44) (V c main_v46) (V c main_v45) (((cfg1.win 5).blk t).view.emb j)
  refine (pay_at (iblk1 V c 0 t) (iblk1 V c 1 t) (iblk1 V c 2 t) (iblk1 V c 4 t) (iblk1 V c 3 t) j).trans ?_
  unfold layer128 affine128
  refine congrArg₂ max (congrArg₂ (· + ·) (congrArg₂ (· + ·) (Finset.sum_congr rfl fun k _ => ?_) (Finset.sum_congr rfl fun k _ => ?_)) ?_) rfl
  · rw [read_mean V c t j k, read_wl V c t j k]
  · rw [read_x V c t j k, read_wr V c t j k]
  · exact read_b V c t j

/-- An index is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v47).slice (win1_5.rect t)).set ↔ _
  rw [View.set_slice_whole, Rect.mem_set_unit]
  exact Iff.rfl

/-- Row r lies in the block of point r / 5000: the 20 blocks tile the array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have ht : (i 0).val / 5000 < cfg1.N := by show _ < grid1.N; rw [hN]; omega
  obtain ⟨e00, e01, e10, e11, e20, e21, e30, e31, e40, e41, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- After the region, its output array is the layer's function of the arrays the region found. -/
theorem arr (c : Dev nD) : (dat1 V c).arrAt 5 cfg1.N
    = layer128 (V c main_v43) (V c main_v25) (V c main_v44) (V c main_v46) (V c main_v45) :=
  (dat1 V c).arrAt_eq_of_cover 5 _ (fun t _ => flushed_eq V c t) cover

end Cert.KernelIdeal.Layer1

end
-- ==== Proof.Layer2.lean ====
/-
  The third SAGE layer's region, read as a value.

  As the second layer's, without the rectifier: the region tiles its [100000, 128] output by 20 row blocks of 5000;
  at point t the body loads block t of the neighbour means and of the hidden features ([5000, 128] each), the two
  transposed weight matrices ([128, 128]) and the bias row ([1, 128]) whole, and stores, at (r, q) of its block,
      (Σ_k mean[r,k] · wl[k,q] + Σ_k h[r,k] · wr[k,q]) + b[0,q].
  Row r of block t is row 5000·t + r of the arrays, so point t writes back block t of `Cert.Sage.affine128` of the
  whole arrays, and the 20 blocks tile the output. Stated at any contents `V` of the buffers at region entry.
-/
import proofs.«172675_j58042188038363_1_alg».proof.Proof.Gen.KernelIdeal.Frame
import proofs.«172675_j58042188038363_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)
open Cert.Sage

/-! ## Inside one block: the body's arithmetic at an index -/

/-- (r, k) in a [5000, 128] block. -/
abbrev brow (j : S5000x128.Idx) (k : Fin 128) : S5000x128.Idx := fun a => match a with
  | ⟨0, _⟩ => ⟨(j 0).val, (j 0).isLt⟩
  | ⟨1, _⟩ => ⟨k.val, k.isLt⟩
/-- (k, q) in a [128, 128] block. -/
abbrev bcol (j : S5000x128.Idx) (k : Fin 128) : S128x128.Idx := fun a => match a with
  | ⟨0, _⟩ => ⟨k.val, k.isLt⟩
  | ⟨1, _⟩ => ⟨(j 1).val, (j 1).isLt⟩
/-- (0, q) in the bias block. -/
abbrev bbias (j : S5000x128.Idx) : S1x128.Idx := fun a => match a with
  | ⟨0, _⟩ => ⟨0, Nat.one_pos⟩
  | ⟨1, _⟩ => ⟨(j 1).val, (j 1).isLt⟩

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into a zero accumulator, read at (r, q): the sum over the 128 contraction positions of the
    left block's row r times the right block's column q. -/
theorem matmul_at (l : FVec Ideal S5000x128 .bf16) (r : FVec Ideal S128x128 .bf16) (j : S5000x128.Idx) :
    matmul (F := Ideal) dot_S5000x128_S128x128_S5000x128_1_0_0_1_n_n none l r (constant (F := Ideal) S5000x128 .f32 0x00000000#32) j
      = ∑ k : Fin 128, l (brow j k) * r (bcol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_0 _ _).trans hk
    | ⟨1, _⟩ => exact rhs_1 _ _)
  rw [el, er]

/-- The bias row broadcast down the block, read at (r, q), is the row's entry q. -/
theorem bias_at (b : Vec Ideal S1x128 .f32) (j : S5000x128.Idx) :
    broadcastTo S5000x128 (shapeCast S1x128 b shapeCasts_S1x128_S1x128) broadcasts_S1x128_S5000x128 j = b (bbias j) := by
  rw [shapeCast_self]
  exact broadcastTo_apply b broadcasts_S1x128_S5000x128 j (bbias j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The body's one stored value at (r, q): the two block products added and the bias row added; nothing is
    rectified in this layer. (Rounding the operands to bf16 is the identity on the extended reals.) -/
theorem pay_at (x0 x1 : Vec Ideal S5000x128 .f32) (wl wr : Vec Ideal S128x128 .f32) (b : Vec Ideal S1x128 .f32) (j : S5000x128.Idx) :
    k2_pay1 (F := Ideal) x0 x1 wl wr b j
      = (∑ k : Fin 128, x0 (brow j k) * wl (bcol j k) + ∑ k : Fin 128, x1 (brow j k) * wr (bcol j k)) + b (bbias j) := by
  unfold k2_pay1
  rw [ValueIdx.addf_apply, ValueIdx.addf_apply, matmul_at, matmul_at, bias_at]
  simp only [ValueIdx.truncf_apply, shapeCast_self]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-tiled inputs and the output sit at block row t,
    the weights and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of block t of the neighbour means is row 5000·t + r of the array. -/
theorem read_mean (c : Dev nD) (t : Fin cfg2.N) (j : S5000x128.Idx) (k : Fin 128) :
    iblk2 V c 0 t (brow j k) = V c main_v65 (row128 (((cfg2.win 5).blk t).view.emb j) k) := by
  obtain ⟨e00, e01, e10, e11, e20, e21, e30, e31, e40, e41, e50, e51⟩ := idx_facts t
  show V c main_v65 (((cfg2.win 0).blk t).view.emb (brow j k)) = V c main_v65 _
  refine congrArg (V c main_v65) (funext fun a => Fin.ext ?_)
  match a with
  | ⟨0, _⟩ => show win2_0.index t (0 : Fin 2) * 5000 + 1 * (j 0).val = win2_5.index t (0 : Fin 2) * 5000 + 1 * (j 0).val; omega
  | ⟨1, _⟩ => show win2_0.index t (1 : Fin 2) * 128 + 1 * k.val = k.val; omega

/-- The same for the hidden features. -/
theorem read_x (c : Dev nD) (t : Fin cfg2.N) (j : S5000x128.Idx) (k : Fin 128) :
    iblk2 V c 1 t (brow j k) = V c main_v47 (row128 (((cfg2.win 5).blk t).view.emb j) k) := by
  obtain ⟨e00, e01, e10, e11, e20, e21, e30, e31, e40, e41, e50, e51⟩ := idx_facts t
  show V c main_v47 (((cfg2.win 1).blk t).view.emb (brow j k)) = V c main_v47 _
  refine congrArg (V c main_v47) (funext fun a => Fin.ext ?_)
  match a with
  | ⟨0, _⟩ => show win2_1.index t (0 : Fin 2) * 5000 + 1 * (j 0).val = win2_5.index t (0 : Fin 2) * 5000 + 1 * (j 0).val; omega
  | ⟨1, _⟩ => show win2_1.index t (1 : Fin 2) * 128 + 1 * k.val = k.val; omega

/-- Every point reads the whole of the first weight matrix. -/
theorem read_wl (c : Dev nD) (t : Fin cfg2.N) (j : S5000x128.Idx) (k : Fin 128) :
    iblk2 V c 2 t (bcol j k) = V c main_v66 (col128 (((cfg2.win 5).blk t).view.emb j) k) := by
  obtain ⟨e00, e01, e10, e11, e20, e21, e30, e31, e40, e41, e50, e51⟩ := idx_facts t
  show V c main_v66 (((cfg2.win 2).blk t).view.emb (bcol j k)) = V c main_v66 _
  refine congrArg (V c main_v66) (funext fun a => Fin.ext ?_)
  match a with
  | ⟨0, _⟩ => show win2_2.index t (0 : Fin 2) * 128 + 1 * k.val = k.val; omega
  | ⟨1, _⟩ => show win2_2.index t (1 : Fin 2) * 128 + 1 * (j 1).val = win2_5.index t (1 : Fin 2) * 128 + 1 * (j 1).val; omega

/-- … and of the second. -/
theorem read_wr (c : Dev nD) (t : Fin cfg2.N) (j : S5000x128.Idx) (k : Fin 128) :
    iblk2 V c 4 t (bcol j k) = V c main_v67 (col128 (((cfg2.win 5).blk t).view.emb j) k) := by
  obtain ⟨e00, e01, e10, e11, e20, e21, e30, e31, e40, e41, e50, e51⟩ := idx_facts t
  show V c main_v67 (((cfg2.win 4).blk t).view.emb (bcol j k)) = V c main_v67 _
  refine congrArg (V c main_v67) (funext fun a => Fin.ext ?_)
  match a with
  | ⟨0, _⟩ => show win2_4.index t (0 : Fin 2) * 128 + 1 * k.val = k.val; omega
  | ⟨1, _⟩ => show win2_4.index t (1 : Fin 2) * 128 + 1 * (j 1).val = win2_5.index t (1 : Fin 2) * 128 + 1 * (j 1).val; omega

/-- … and the whole bias row. -/
theorem read_b (c : Dev nD) (t : Fin cfg2.N) (j : S5000x128.Idx) :
    iblk2 V c 3 t (bbias j) = V c main_v68 (biasAt (((cfg2.win 5).blk t).view.emb j)) := by
  obtain ⟨e00, e01, e10, e11, e20, e21, e30, e31, e40, e41, e50, e51⟩ := idx_facts t
  show V c main_v68 (((cfg2.win 3).blk t).view.emb (bbias j)) = V c main_v68 _
  refine congrArg (V c main_v68) (funext fun a => Fin.ext ?_)
  match a with
  | ⟨0, _⟩ => show win2_3.index t (0 : Fin 2) * 1 + 1 * 0 = 0; omega
  | ⟨1, _⟩ => show win2_3.index t (1 : Fin 2) * 128 + 1 * (j 1).val = win2_5.index t (1 : Fin 2) * 128 + 1 * (j 1).val; omega

/-- What point t writes back is block t of the layer's whole-array function of the arrays the region finds. -/
theorem flushed_eq (c : Dev nD) (t : Fin cfg2.N) :
    (dat2 V c).flushed 5 t = ((cfg2.win 5).blk t).view.read (Elt Ideal)
      (affine128 (V c main_v65) (V c main_v47) (V c main_v66) (V c main_v68) (V c main_v67)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  show k2_pay1 (F := Ideal) (iblk2 V c 0 t) (iblk2 V c 1 t) (iblk2 V c 2 t) (iblk2 V c 4 t) (iblk2 V c 3 t) j
    = affine128 (V c main_v65) (V c main_v47) (V c main_v66) (V c main_v68) (V c main_v67) (((cfg2.win 5).blk t).view.emb j)
  refine (pay_at (iblk2 V c 0 t) (iblk2 V c 1 t) (iblk2 V c 2 t) (iblk2 V c 4 t) (iblk2 V c 3 t) j).trans ?_
  unfold affine128
  refine congrArg₂ (· + ·) (congrArg₂ (· + ·) (Finset.sum_congr rfl fun k _ => ?_) (Finset.sum_congr rfl fun k _ => ?_)) ?_
  · rw [read_mean V c t j k, read_wl V c t j k]
  · rw [read_x V c t j k, read_wr V c t j k]
  · exact read_b V c t j

/-- An index is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v69).slice (win2_5.rect t)).set ↔ _
  rw [View.set_slice_whole, Rect.mem_set_unit]
  exact Iff.rfl

/-- Row r lies in the block of point r / 5000: the 20 blocks tile the array. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  have ht : (i 0).val / 5000 < cfg2.N := by show _ < grid2.N; rw [hN]; omega
  obtain ⟨e00, e01, e10, e11, e20, e21, e30, e31, e40, e41, e50, e51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e51]; omega

/-- After the region, its output array is the layer's function of the arrays the region found. -/
theorem arr (c : Dev nD) : (dat2 V c).arrAt 5 cfg2.N
    = affine128 (V c main_v65) (V c main_v47) (V c main_v66) (V c main_v68) (V c main_v67) :=
  (dat2 V c).arrAt_eq_of_cover 5 _ (fun t _ => flushed_eq V c t) cover

end Cert.KernelIdeal.Layer2

end
-- ==== Proof.Layer3.lean ====
/-
  The output projection's region, read as a value.

  The region tiles its [100000, 128] output by 20 row blocks of 5000; at point t the body loads block t of the hidden
  features ([5000, 128]) and the whole of the (padded, transposed) projection matrix ([128, 128]) and of the (padded)
  bias row ([1, 128]), and stores, at (r, q) of its block,
      Σ_k h[r,k] · w[k,q] + b[0,q].
  Row r of block t is row 5000·t + r of the array, so point t writes back block t of `Cert.Sage.proj128` of the whole
  arrays, and the 20 blocks tile the output. Stated at any contents `V` of the buffers at region entry.
-/
import proofs.«172675_j58042188038363_1_alg».proof.Proof.Gen.KernelIdeal.Frame
import proofs.«172675_j58042188038363_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.Pipeline (Dat)
open Cert.Sage

/-! ## Inside one block: the body's arithmetic at an index -/

/-- (r, k) in a [5000, 128] block. -/
abbrev brow (j : S5000x128.Idx) (k : Fin 128) : S5000x128.Idx := fun a => match a with
  | ⟨0, _⟩ => ⟨(j 0).val, (j 0).isLt⟩
  | ⟨1, _⟩ => ⟨k.val, k.isLt⟩
/-- (k, q) in a [128, 128] block. -/
abbrev bcol (j : S5000x128.Idx) (k : Fin 128) : S128x128.Idx := fun a => match a with
  | ⟨0, _⟩ => ⟨k.val, k.isLt⟩
  | ⟨1, _⟩ => ⟨(j 1).val, (j 1).isLt⟩
/-- (0, q) in the bias block. -/
abbrev bbias (j : S5000x128.Idx) : S1x128.Idx := fun a => match a with
  | ⟨0, _⟩ => ⟨0, Nat.one_pos⟩
  | ⟨1, _⟩ => ⟨(j 1).val, (j 1).isLt⟩

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, read at (r, q): the sum over the 128 contraction positions of the
    features' row r times the matrix's column q. -/
theorem matmul_at (l : FVec Ideal S5000x128 .bf16) (r : FVec Ideal S128x128 .bf16) (j : S5000x128.Idx) :
    matmul (F := Ideal) dot_S5000x128_S128x128_S5000x128_1_0_0_1_n_n none l r (constant (F := Ideal) S5000x128 .f32 0x00000000#32) j
      = ∑ k : Fin 128, l (brow j k) * r (bcol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_0 _ _).trans hk
    | ⟨1, _⟩ => exact rhs_1 _ _)
  rw [el, er]

/-- The bias row broadcast down the block, read at (r, q), is the row's entry q. -/
theorem bias_at (b : Vec Ideal S1x128 .f32) (j : S5000x128.Idx) :
    broadcastTo S5000x128 (shapeCast S1x128 b shapeCasts_S1x128_S1x128) broadcasts_S1x128_S5000x128 j = b (bbias j) := by
  rw [shapeCast_self]
  exact broadcastTo_apply b broadcasts_S1x128_S5000x128 j (bbias j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The body's one stored value at (r, q): the block product plus the bias row. (Rounding the operands to bf16
    is the identity on the extended reals.) -/
theorem pay_at (x0 : Vec Ideal S5000x128 .f32) (w : Vec Ideal S128x128 .f32) (b : Vec Ideal S1x128 .f32) (j : S5000x128.Idx) :
    k3_pay1 (F := Ideal) x0 w b j = (∑ k : Fin 128, x0 (brow j k) * w (bcol j k)) + b (bbias j) := by
  unfold k3_pay1
  rw [ValueIdx.addf_apply, matmul_at, bias_at]
  simp only [ValueIdx.truncf_apply, shapeCast_self]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the features and the output sit at block row t, the matrix
    and the bias at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of block t of the hidden features is row 5000·t + r of the array. -/
theorem read_h (c : Dev nD) (t : Fin cfg3.N) (j : S5000x128.Idx) (k : Fin 128) :
    iblk3 V c 0 t (brow j k) = V c main_v69 (row128 (((cfg3.win 3).blk t).view.emb j) k) := by
  obtain ⟨e00, e01, e10, e11, e20, e21, e30, e31⟩ := idx_facts t
  show V c main_v69 (((cfg3.win 0).blk t).view.emb (brow j k)) = V c main_v69 _
  refine congrArg (V c main_v69) (funext fun a => Fin.ext ?_)
  match a with
  | ⟨0, _⟩ => show win3_0.index t (0 : Fin 2) * 5000 + 1 * (j 0).val = win3_3.index t (0 : Fin 2) * 5000 + 1 * (j 0).val; omega
  | ⟨1, _⟩ => show win3_0.index t (1 : Fin 2) * 128 + 1 * k.val = k.val; omega

/-- Every point reads the whole projection matrix. -/
theorem read_w (c : Dev nD) (t : Fin cfg3.N) (j : S5000x128.Idx) (k : Fin 128) :
    iblk3 V c 1 t (bcol j k) = V c main_v76 (col128 (((cfg3.win 3).blk t).view.emb j) k) := by
  obtain ⟨e00, e01, e10, e11, e20, e21, e30, e31⟩ := idx_facts t
  show V c main_v76 (((cfg3.win 1).blk t).view.emb (bcol j k)) = V c main_v76 _
  refine congrArg (V c main_v76) (funext fun a => Fin.ext ?_)
  match a with
  | ⟨0, _⟩ => show win3_1.index t (0 : Fin 2) * 128 + 1 * k.val = k.val; omega
  | ⟨1, _⟩ => show win3_1.index t (1 : Fin 2) * 128 + 1 * (j 1).val = win3_3.index t (1 : Fin 2) * 128 + 1 * (j 1).val; omega

/-- … and the whole bias row. -/
theorem read_b (c : Dev nD) (t : Fin cfg3.N) (j : S5000x128.Idx) :
    iblk3 V c 2 t (bbias j) = V c main_v77 (biasAt (((cfg3.win 3).blk t).view.emb j)) := by
  obtain ⟨e00, e01, e10, e11, e20, e21, e30, e31⟩ := idx_facts t
  show V c main_v77 (((cfg3.win 2).blk t).view.emb (bbias j)) = V c main_v77 _
  refine congrArg (V c main_v77) (funext fun a => Fin.ext ?_)
  match a with
  | ⟨0, _⟩ => show win3_2.index t (0 : Fin 2) * 1 + 1 * 0 = 0; omega
  | ⟨1, _⟩ => show win3_2.index t (1 : Fin 2) * 128 + 1 * (j 1).val = win3_3.index t (1 : Fin 2) * 128 + 1 * (j 1).val; omega

/-- What point t writes back is block t of the projection's whole-array function of the arrays the region finds. -/
theorem flushed_eq (c : Dev nD) (t : Fin cfg3.N) :
    (dat3 V c).flushed 3 t = ((cfg3.win 3).blk t).view.read (Elt Ideal)
      (proj128 (V c main_v69) (V c main_v76) (V c main_v77)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  funext j
  show k3_pay1 (F := Ideal) (iblk3 V c 0 t) (iblk3 V c 1 t) (iblk3 V c 2 t) j
    = proj128 (V c main_v69) (V c main_v76) (V c main_v77) (((cfg3.win 3).blk t).view.emb j)
  refine (pay_at (iblk3 V c 0 t) (iblk3 V c 1 t) (iblk3 V c 2 t) j).trans ?_
  unfold proj128
  refine congrArg₂ (· + ·) (Finset.sum_congr rfl fun k _ => ?_) ?_
  · rw [read_h V c t j k, read_w V c t j k]
  · exact read_b V c t j

/-- An index is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v78).slice (win3_3.rect t)).set ↔ _
  rw [View.set_slice_whole, Rect.mem_set_unit]
  exact Iff.rfl

/-- Row r lies in the block of point r / 5000: the 20 blocks tile the array. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : grid3.N = 20 := N_3
  have ht : (i 0).val / 5000 < cfg3.N := by show _ < grid3.N; rw [hN]; omega
  obtain ⟨e00, e01, e10, e11, e20, e21, e30, e31⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val ∧ (i 1).val < win3_3.index ⟨(i 0).val / 5000, ht⟩ (1 : Fin 2) * 128 + 128
    rw [e31]; omega

/-- After the region, its output array is the projection's function of the arrays the region found. -/
theorem arr (c : Dev nD) : (dat3 V c).arrAt 3 cfg3.N = proj128 (V c main_v69) (V c main_v76) (V c main_v77) :=
  (dat3 V c).arrAt_eq_of_cover 3 _ (fun t _ => flushed_eq V c t) cover

end Cert.KernelIdeal.Layer3

end
-- ==== Proof.RefLayers.lean ====
/-
  The reference program, layer by layer, as the layer functions of its own intermediate values.

  Each SAGE layer of the reference is  mean · Wlᵀ + b + x · Wrᵀ  (rectified in the first two layers): two host matrix
  products read as sums over the contraction index, the bias row broadcast down the rows. The layer functions add the
  two products first and the bias last; on the extended reals addition is commutative and associative, so the two
  groupings are the same number at every index. The last stage is  h · W_outᵀ + b_out  over 2 output columns, which is
  columns 0 and 1 of a projection over 128 padded columns whenever the padded matrix and bias agree with W_outᵀ and
  b_out on those two columns.
-/
import proofs.«172675_j58042188038363_1_alg».proof.Proof.Gen.ReferenceIdeal.Read
import proofs.«172675_j58042188038363_1_alg».proof.Proof.LayerSpec
import Idealize.ShloMosaic.PureOps.Ideal.Laws

noncomputable section

namespace Cert.ReferenceIdeal.Layers

open Cert.ReferenceIdeal Cert.ReferenceIdeal.Read Idealize.ShloMosaic
open Cert.Sage

/-- The reference's first layer is the rectified layer function of its own neighbour means, the node features, the
    two transposed weights and the bias row. -/
theorem layer0 (x0 : (⟨S100000x165, .f32⟩ : BufTy).Contents (Elt Ideal)) (x1 : (⟨S2x1600000, .i32⟩ : BufTy).Contents (Elt Ideal)) (x2 : (⟨S128x165, .f32⟩ : BufTy).Contents (Elt Ideal)) (x3 : (⟨S128, .f32⟩ : BufTy).Contents (Elt Ideal)) (x4 : (⟨S128x165, .f32⟩ : BufTy).Contents (Elt Ideal)) :
    layer165 (val_main_v21 (F := Ideal) x0 x1) x0 (val_main_v22 (F := Ideal) x2) (val_main_v24 (F := Ideal) x3) (val_main_v27 (F := Ideal) x4)
      = val_main_v30 (F := Ideal) x0 x1 x2 x3 x4 := by
  funext i
  rw [val_main_v30_apply, val_main_v29_apply, val_main_v26_apply, val_main_v23_apply, val_main_v28_apply, val_main_v25_apply,
    val_main_call0_v0_apply, val_main_call0_cst_apply]
  unfold layer165 affine165
  simp only [Ideal.maximumf_def, Ideal.addf_def, Ideal.ofBits_def]
  rw [add_right_comm]
  rfl

/-- The reference's second layer, over the first layer's output. -/
theorem layer1 (x0 : (⟨S100000x165, .f32⟩ : BufTy).Contents (Elt Ideal)) (x1 : (⟨S2x1600000, .i32⟩ : BufTy).Contents (Elt Ideal)) (x2 : (⟨S128x165, .f32⟩ : BufTy).Contents (Elt Ideal)) (x3 : (⟨S128, .f32⟩ : BufTy).Contents (Elt Ideal)) (x4 : (⟨S128x165, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    layer128 (val_main_v48 (F := Ideal) x0 x1 x2 x3 x4) (val_main_v30 (F := Ideal) x0 x1 x2 x3 x4) (val_main_v49 (F := Ideal) x5)
        (val_main_v51 (F := Ideal) x6) (val_main_v54 (F := Ideal) x7)
      = val_main_v57 (F := Ideal) x0 x1 x2 x3 x4 x5 x6 x7 := by
  funext i
  rw [val_main_v57_apply, val_main_v56_apply, val_main_v53_apply, val_main_v50_apply, val_main_v55_apply, val_main_v52_apply,
    val_main_call1_v0_apply, val_main_call1_cst_apply]
  unfold layer128 affine128
  simp only [Ideal.maximumf_def, Ideal.addf_def, Ideal.ofBits_def]
  rw [add_right_comm]
  rfl

/-- The reference's third layer, over the second layer's output; nothing is rectified here. -/
theorem layer2 (x0 : (⟨S100000x165, .f32⟩ : BufTy).Contents (Elt Ideal)) (x1 : (⟨S2x1600000, .i32⟩ : BufTy).Contents (Elt Ideal)) (x2 : (⟨S128x165, .f32⟩ : BufTy).Contents (Elt Ideal)) (x3 : (⟨S128, .f32⟩ : BufTy).Contents (Elt Ideal)) (x4 : (⟨S128x165, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    affine128 (val_main_v75 (F := Ideal) x0 x1 x2 x3 x4 x5 x6 x7) (val_main_v57 (F := Ideal) x0 x1 x2 x3 x4 x5 x6 x7) (val_main_v76 (F := Ideal) x8)
        (val_main_v78 (F := Ideal) x9) (val_main_v81 (F := Ideal) x10)
      = val_main_v83 (F := Ideal) x0 x1 x2 x3 x4 x5 x6 x7 x8 x9 x10 := by
  funext i
  rw [val_main_v83_apply, val_main_v80_apply, val_main_v77_apply, val_main_v82_apply, val_main_v79_apply]
  unfold affine128
  simp only [Ideal.addf_def]
  rw [add_right_comm]
  rfl

/-- (r, q) of the 2-column result as an index of the 128-column padded result. -/
abbrev wide (i : S100000x2.Idx) : SN128.Idx := fun a => match a with
  | ⟨0, _⟩ => ⟨(i 0).val, (i 0).isLt⟩
  | ⟨1, _⟩ => ⟨(i 1).val, by have h : (i 1).val < 2 := (i 1).isLt; show (i 1).val < 128; omega⟩

/-- The reference's result at (r, q), q < 2, is entry (r, q) of the padded projection of the third layer's output, for
    any padded matrix that agrees with W_outᵀ on columns 0 and 1 and any padded bias row that agrees with b_out there. -/
theorem project (x0 : (⟨S100000x165, .f32⟩ : BufTy).Contents (Elt Ideal)) (x1 : (⟨S2x1600000, .i32⟩ : BufTy).Contents (Elt Ideal)) (x2 : (⟨S128x165, .f32⟩ : BufTy).Contents (Elt Ideal)) (x3 : (⟨S128, .f32⟩ : BufTy).Contents (Elt Ideal)) (x4 : (⟨S128x165, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S2x128, .f32⟩ : BufTy).Contents (Elt Ideal)) (x12 : (⟨S2, .f32⟩ : BufTy).Contents (Elt Ideal)) (w : SW128.Idx → EReal) (b : SB128.Idx → EReal)
    (hw : ∀ (i : S100000x2.Idx) (k : Fin 128), w (col128 (wide i) k) = val_main_v84 (F := Ideal) x11 (ridx_main_v85 i k))
    (hb : ∀ i : S100000x2.Idx, b (biasAt (wide i)) = val_main_v87 (F := Ideal) x12 i)
    (i : S100000x2.Idx) :
    proj128 (val_main_v83 (F := Ideal) x0 x1 x2 x3 x4 x5 x6 x7 x8 x9 x10) w b (wide i) = val_main_v88 (F := Ideal) x0 x1 x2 x3 x4 x5 x6 x7 x8 x9 x10 x11 x12 i := by
  rw [val_main_v88_apply, val_main_v85_apply]
  unfold proj128
  simp only [Ideal.addf_def]
  rw [hb i]
  refine congrArg₂ (· + ·) (Finset.sum_congr rfl fun k _ => ?_) rfl
  rw [hw i k]
  rfl

end Cert.ReferenceIdeal.Layers

end
-- ==== Proof.LibOverwrite.lean ====
/-
  A set-style scatter read at an index.

  `Host.scatter` folds the update positions, in row-major order, over the operand: a position whose result index is
  inside the operand overwrites that one element by the body's value, any other position leaves the array alone.
  When the body returns the update (`.at[…].set`) and exactly one update position lands on an index, the result
  there is that position's update, whatever the order and whatever the other positions do.
-/
import Idealize.ShloMosaic.PureOps.ShapeOps

namespace Idealize.ShloMosaic

/-- A fold of pointwise overwrites, read at an index `i₀` that exactly one list element `n₀` targets: it ends at
    `n₀`'s value if `n₀` is in the list, and at the initial contents if not. The step is any function that, at an
    element targeting `i`, writes `f (r i) (v n)` at `i` and leaves every other index, and at an element
    targeting nothing leaves the array. -/
theorem foldl_overwrite_hit {ι κ α : Type} (f : α → α → α) (hf : ∀ a b, f a b = b)
    (g : κ → Option ι) (v : κ → α) (step : (ι → α) → κ → ι → α)
    (hhit : ∀ r n i, g n = some i → step r n i = f (r i) (v n))
    (hmiss : ∀ r n i i', g n = some i → i' ≠ i → step r n i' = r i')
    (hnone : ∀ r n, g n = none → step r n = r)
    (i₀ : ι) (n₀ : κ) (hg : g n₀ = some i₀) (huniq : ∀ n, g n = some i₀ → n = n₀) :
    ∀ (L : List κ), L.Nodup → ∀ r : ι → α,
      (L.foldl step r) i₀ = (open Classical in if n₀ ∈ L then v n₀ else r i₀) := by
  classical
  intro L
  induction L with
  | nil => intro _ r; simp
  | cons a L ih =>
    intro hnd r
    obtain ⟨haL, hL⟩ := List.nodup_cons.mp hnd
    rw [List.foldl_cons, ih hL]
    by_cases ha : a = n₀
    · subst ha
      rw [if_neg haL, if_pos List.mem_cons_self, hhit r a i₀ hg, hf]
    · have hne : g a ≠ some i₀ := fun h => ha (huniq a h)
      have hmem : (n₀ ∈ a :: L) ↔ n₀ ∈ L := by
        rw [List.mem_cons]; exact ⟨fun h => h.resolve_left (fun e => ha e.symm), Or.inr⟩
      have hstep : step r a i₀ = r i₀ := by
        cases hga : g a with
        | none => rw [hnone r a hga]
        | some i => exact hmiss r a i i₀ hga (fun h => hne (by rw [hga, h]))
      rw [hstep]
      exact if_congr hmem.symm rfl rfl

/-- A scatter whose body returns the update, read at an index that exactly one update position `j₀` lands on,
    is the update at `j₀`. -/
theorem Host.scatter_set_apply {s si u : Shape} {w : Nat} {α : Type} (d : ScatterDims s si u) (f : α → α → α)
    (hf : ∀ a b, f a b = b) (x : s.Idx → α) (idx : IVec si w) (upd : u.Idx → α) (j₀ : u.Idx) (i₀ : s.Idx)
    (h₀ : d.resultIdx? j₀ idx = some i₀) (huniq : ∀ j, d.resultIdx? j idx = some i₀ → j = j₀) :
    Host.scatter d f x idx upd i₀ = upd j₀ := by
  unfold Host.scatter
  refine (foldl_overwrite_hit f hf (fun n => d.resultIdx? (u.rowMajor.symm n) idx) (fun n => upd (u.rowMajor.symm n)) _
    (fun r n i h => ?_) (fun r n i i' h hne => ?_) (fun r n h => ?_) i₀
    (u.rowMajor j₀) (by simp only [Equiv.symm_apply_apply]; exact h₀)
    (fun n hn => by
      have := huniq _ hn
      rw [← this, Equiv.apply_symm_apply])
    (List.finRange u.numel) (List.nodup_finRange _) x).trans ?_
  · simp only [h]; rw [if_pos trivial]
  · simp only [h]; rw [if_neg hne]
  · simp only [h]
  · rw [if_pos (List.mem_finRange _), Equiv.symm_apply_apply]

end Idealize.ShloMosaic
-- ==== Proof.Pad.lean ====
/-
  The projection's padding, read where it matters.

  The kernel's program pads W_out ([2, 128]) to [128, 128] and b_out ([2]) to [128] by writing them at row 0 of an
  array of zeros (one scatter each, its one start index the constant 0, its body returning the update). Update
  position (q, k) lands on result index (0 + q, k), inside the array since q < 2 ≤ 128, and no other position lands
  there. So rows 0 and 1 of the padded matrix are W_out's rows, and entries 0 and 1 of the padded bias are b_out's.
-/
import proofs.«172675_j58042188038363_1_alg».proof.Proof.Gen.KernelIdeal
import proofs.«172675_j58042188038363_1_alg».proof.Proof.LibOverwrite

noncomputable section

namespace Cert.KernelIdeal.Pad

open Cert.KernelIdeal Cert.KernelIdeal.Gen Idealize.ShloMosaic

/-! ## The matrix -/

/-- (q, k) of W_out as an index of the padded matrix. -/
abbrev padW (j : S2x128.Idx) : S128x128.Idx := fun a => match a with
  | ⟨0, _⟩ => ⟨(j 0).val, by have h : (j 0).val < 2 := (j 0).isLt; show (j 0).val < 128; omega⟩
  | ⟨1, _⟩ => ⟨(j 1).val, (j 1).isLt⟩

theorem startW (j : S2x128.Idx) (idx : IVec S1 32) (h0 : ∀ k, idx k = 0#32) (a : Fin 2) :
    scatter_S128x128_S1_S2x128_01_n_0_0.start j idx a = 0 := by
  unfold ScatterDims.start
  split
  · rw [h0]; rfl
  · rfl

theorem windowW0 (j : S2x128.Idx) : scatter_S128x128_S1_S2x128_01_n_0_0.window j (0 : Fin 2) = (j 0).val := by
  unfold ScatterDims.window
  rw [dif_pos (by decide)]
  rfl
theorem windowW1 (j : S2x128.Idx) : scatter_S128x128_S1_S2x128_01_n_0_0.window j (1 : Fin 2) = (j 1).val := by
  unfold ScatterDims.window
  rw [dif_pos (by decide)]
  rfl

theorem resultW (j : S2x128.Idx) (idx : IVec S1 32) (h0 : ∀ k, idx k = 0#32) :
    scatter_S128x128_S1_S2x128_01_n_0_0.resultIdx? j idx = some (padW j) := by
  have hj0 : (j 0).val < 2 := (j 0).isLt
  have hj1 : (j 1).val < 128 := (j 1).isLt
  have H : ∀ a : Fin 2, 0 ≤ scatter_S128x128_S1_S2x128_01_n_0_0.start j idx a + scatter_S128x128_S1_S2x128_01_n_0_0.window j a
      ∧ scatter_S128x128_S1_S2x128_01_n_0_0.start j idx a + scatter_S128x128_S1_S2x128_01_n_0_0.window j a < S128x128.size a := by
    intro a
    rw [startW j idx h0 a]
    match a with
    | ⟨0, _⟩ => rw [show scatter_S128x128_S1_S2x128_01_n_0_0.window j ⟨0, _⟩ = (j 0).val from windowW0 j]; show (0 : Int) ≤ 0 + ((j 0).val : Int) ∧ (0 : Int) + ((j 0).val : Int) < ((128 : Nat) : Int); omega
    | ⟨1, _⟩ => rw [show scatter_S128x128_S1_S2x128_01_n_0_0.window j ⟨1, _⟩ = (j 1).val from windowW1 j]; show (0 : Int) ≤ 0 + ((j 1).val : Int) ∧ (0 : Int) + ((j 1).val : Int) < ((128 : Nat) : Int); omega
  unfold ScatterDims.resultIdx?
  rw [dif_pos H]
  refine congrArg some (funext fun a => Fin.ext ?_)
  show (scatter_S128x128_S1_S2x128_01_n_0_0.start j idx a + scatter_S128x128_S1_S2x128_01_n_0_0.window j a).toNat = (padW j a).val
  rw [startW j idx h0 a]
  match a with
  | ⟨0, _⟩ => rw [show scatter_S128x128_S1_S2x128_01_n_0_0.window j ⟨0, _⟩ = (j 0).val from windowW0 j]; show ((0 : Int) + ((j 0).val : Int)).toNat = (j 0).val; omega
  | ⟨1, _⟩ => rw [show scatter_S128x128_S1_S2x128_01_n_0_0.window j ⟨1, _⟩ = (j 1).val from windowW1 j]; show ((0 : Int) + ((j 1).val : Int)).toNat = (j 1).val; omega

theorem padW_inj {j j' : S2x128.Idx} (h : padW j = padW j') : j = j' := by
  funext a
  apply Fin.ext
  match a with
  | ⟨0, _⟩ => show (padW j 0).val = (padW j' 0).val; exact congrArg Fin.val (congrFun h (0 : Fin 2))
  | ⟨1, _⟩ => show (padW j 1).val = (padW j' 1).val; exact congrArg Fin.val (congrFun h (1 : Fin 2))

/-- Row q < 2, column k of the padded matrix is W_out's entry (q, k). -/
theorem read_padW {α : Type} (z : S128x128.Idx → α) (idx : IVec S1 32) (h0 : ∀ k, idx k = 0#32) (u : S2x128.Idx → α) (j : S2x128.Idx) :
    Host.scatter scatter_S128x128_S1_S2x128_01_n_0_0 (fun _ b => b) z idx u (padW j) = u j :=
  Host.scatter_set_apply _ _ (fun _ _ => rfl) z idx u j (padW j) (resultW j idx h0)
    (fun j' h => (padW_inj (Option.some.inj ((resultW j' idx h0).symm.trans h))).symm ▸ rfl)

/-! ## The bias -/

/-- q of b_out as an index of the padded bias. -/
abbrev padB (j : S2.Idx) : S128.Idx := fun a => match a with
  | ⟨0, _⟩ => ⟨(j 0).val, by have h : (j 0).val < 2 := (j 0).isLt; show (j 0).val < 128; omega⟩

theorem startB (j : S2.Idx) (idx : IVec S1 32) (h0 : ∀ k, idx k = 0#32) (a : Fin 1) :
    scatter_S128_S1_S2_0_n_0_0.start j idx a = 0 := by
  unfold ScatterDims.start
  split
  · rw [h0]; rfl
  · rfl

theorem windowB0 (j : S2.Idx) : scatter_S128_S1_S2_0_n_0_0.window j (0 : Fin 1) = (j 0).val := by
  unfold ScatterDims.window
  rw [dif_pos (by decide)]
  rfl

theorem resultB (j : S2.Idx) (idx : IVec S1 32) (h0 : ∀ k, idx k = 0#32) :
    scatter_S128_S1_S2_0_n_0_0.resultIdx? j idx = some (padB j) := by
  have hj0 : (j 0).val < 2 := (j 0).isLt
  have H : ∀ a : Fin 1, 0 ≤ scatter_S128_S1_S2_0_n_0_0.start j idx a + scatter_S128_S1_S2_0_n_0_0.window j a
      ∧ scatter_S128_S1_S2_0_n_0_0.start j idx a + scatter_S128_S1_S2_0_n_0_0.window j a < S128.size a := by
    intro a
    rw [startB j idx h0 a]
    match a with
    | ⟨0, _⟩ => rw [show scatter_S128_S1_S2_0_n_0_0.window j ⟨0, _⟩ = (j 0).val from windowB0 j]; show (0 : Int) ≤ 0 + ((j 0).val : Int) ∧ (0 : Int) + ((j 0).val : Int) < ((128 : Nat) : Int); omega
  unfold ScatterDims.resultIdx?
  rw [dif_pos H]
  refine congrArg some (funext fun a => Fin.ext ?_)
  show (scatter_S128_S1_S2_0_n_0_0.start j idx a + scatter_S128_S1_S2_0_n_0_0.window j a).toNat = (padB j a).val
  rw [startB j idx h0 a]
  match a with
  | ⟨0, _⟩ => rw [show scatter_S128_S1_S2_0_n_0_0.window j ⟨0, _⟩ = (j 0).val from windowB0 j]; show ((0 : Int) + ((j 0).val : Int)).toNat = (j 0).val; omega

theorem padB_inj {j j' : S2.Idx} (h : padB j = padB j') : j = j' := by
  funext a
  apply Fin.ext
  match a with
  | ⟨0, _⟩ => show (padB j 0).val = (padB j' 0).val; exact congrArg Fin.val (congrFun h (0 : Fin 1))

/-- Entry q < 2 of the padded bias is b_out's entry q. -/
theorem read_padB {α : Type} (z : S128.Idx → α) (idx : IVec S1 32) (h0 : ∀ k, idx k = 0#32) (u : S2.Idx → α) (j : S2.Idx) :
    Host.scatter scatter_S128_S1_S2_0_n_0_0 (fun _ b => b) z idx u (padB j) = u j :=
  Host.scatter_set_apply _ _ (fun _ _ => rfl) z idx u j (padB j) (resultB j idx h0)
    (fun j' h => (padB_inj (Option.some.inj ((resultB j' idx h0).symm.trans h))).symm ▸ rfl)

end Cert.KernelIdeal.Pad

end
-- ==== Proof.Chain.lean ====
/-
  The kernel program's buffers, boundary by boundary, as the reference's stages of the argument arrays.

  @main is five stretches of host operations around four regions. The contents of the TensorCore's buffers at the nine
  boundaries are a fold from the launch memory: a host stretch applies its operations, a region leaves its output array
  at what its write-backs fold to and every other buffer alone. Walking that fold forward:
    * a host stretch's results are its operations applied to the buffers it reads. The kernel program's host text
      between the regions (edge lists, gather, scatter-add, the division by the clipped counts, the transposes) is the
      reference's own text, so each result IS the reference's stage function of the same operands; it is never opened.
      A bias vector reshaped to a row is the row the reference broadcasts;
    * a region's output array is the layer function of the arrays the region finds (the four region modules), and the
      layer function of the reference's stages is the reference's next stage (the reference-side module);
    * a buffer that neither a region's windows nor a stretch's operations write is carried unchanged: the edge lists,
      the previous layer's output, and the weights not used yet.
  At the end the result buffer is columns 0 and 1 of the padded projection, which the padding module reads back to
  W_out and b_out: the reference's last stage.
-/
import proofs.«172675_j58042188038363_1_alg».proof.Proof.Gen.KernelIdeal.Frame
import proofs.«172675_j58042188038363_1_alg».proof.Proof.Gen.ReferenceIdeal.Read
import proofs.«172675_j58042188038363_1_alg».proof.Proof.LayerSpec
import proofs.«172675_j58042188038363_1_alg».proof.Proof.Layer0
import proofs.«172675_j58042188038363_1_alg».proof.Proof.Layer1
import proofs.«172675_j58042188038363_1_alg».proof.Proof.Layer2
import proofs.«172675_j58042188038363_1_alg».proof.Proof.Layer3
import proofs.«172675_j58042188038363_1_alg».proof.Proof.RefLayers
import proofs.«172675_j58042188038363_1_alg».proof.Proof.LibOverwrite
import proofs.«172675_j58042188038363_1_alg».proof.Proof.Pad
import Idealize.ShloMosaic.Lib.Pipeline.Value
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read
open Cert.Sage

variable (m : (ℓ : Loc nD τ sig) → Buf (Elt Ideal) ℓ) (ρ : Dev nD → PrngReg)

/-- The argument arrays as launched. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)
abbrev A8 (c : Dev nD) := m ((c.tc : Thread nD τ).loc main_arg8)
abbrev A9 (c : Dev nD) := m ((c.tc : Thread nD τ).loc main_arg9)
abbrev A10 (c : Dev nD) := m ((c.tc : Thread nD τ).loc main_arg10)
abbrev A11 (c : Dev nD) := m ((c.tc : Thread nD τ).loc main_arg11)
abbrev A12 (c : Dev nD) := m ((c.tc : Thread nD τ).loc main_arg12)

/-- A buffer no operation of a host stretch writes is after the stretch what it was before. -/
local macro "untouched " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- A bias vector reshaped to a row is the row the reference makes of it by broadcasting: both read entry q. -/
theorem bias_row (x : (⟨S128, .f32⟩ : BufTy).Contents (Elt Ideal)) :
    shapeCast S1x128 x shapeCasts_S128_S1x128 = val_main_v24 (F := Ideal) x := by
  funext j
  have hj : (j 0).val < 1 := (j 0).isLt
  rw [shapeCast_apply x shapeCasts_S128_S1x128 j (idx_main_v24 j) (by
    rw [Shape.rowMajor_val_one, Shape.rowMajor_val_two]
    show (j 1).val = (j 0).val * 128 + (j 1).val
    omega)]
  exact (val_main_v24_apply (F := Ideal) x j).symm

/-! ## The first host stretch: edge lists, the neighbour means of the node features, the first layer's operands -/

theorem W1_v1 (c : Dev nD) : W1 m ρ c (Proc.devRef .tc main_v1) = val_main_v1 (F := Ideal) (A1 m c) := by
  show StableHlo.after hostOps0 (W0 m ρ c) (Proc.devRef .tc main_v1) = _
  after_results_simp
  rfl

theorem W1_v3 (c : Dev nD) : W1 m ρ c (Proc.devRef .tc main_v3) = val_main_v3 (F := Ideal) (A1 m c) := by
  show StableHlo.after hostOps0 (W0 m ρ c) (Proc.devRef .tc main_v3) = _
  after_results_simp
  rfl

theorem W1_v21 (c : Dev nD) : W1 m ρ c (Proc.devRef .tc main_v21) = val_main_v21 (F := Ideal) (A0 m c) (A1 m c) := by
  show StableHlo.after hostOps0 (W0 m ρ c) (Proc.devRef .tc main_v21) = _
  after_results_simp
  rfl

theorem W1_v22 (c : Dev nD) : W1 m ρ c (Proc.devRef .tc main_v22) = val_main_v22 (F := Ideal) (A2 m c) := by
  show StableHlo.after hostOps0 (W0 m ρ c) (Proc.devRef .tc main_v22) = _
  after_results_simp
  rfl

theorem W1_v23 (c : Dev nD) : W1 m ρ c (Proc.devRef .tc main_v23) = val_main_v27 (F := Ideal) (A4 m c) := by
  show StableHlo.after hostOps0 (W0 m ρ c) (Proc.devRef .tc main_v23) = _
  after_results_simp
  rfl

theorem W1_v24 (c : Dev nD) : W1 m ρ c (Proc.devRef .tc main_v24) = val_main_v24 (F := Ideal) (A3 m c) := by
  have e : W1 m ρ c (Proc.devRef .tc main_v24) = shapeCast S1x128 (A3 m c) shapeCasts_S128_S1x128 := by
    show StableHlo.after hostOps0 (W0 m ρ c) (Proc.devRef .tc main_v24) = _
    after_results_simp
    rfl
  rw [e]
  exact bias_row (A3 m c)

theorem W1_arg0 (c : Dev nD) : W1 m ρ c (Proc.devRef .tc main_arg0) = A0 m c :=
  (by untouched hostOps0 : W1 m ρ c (Proc.devRef .tc main_arg0) = W0 m ρ c (Proc.devRef .tc main_arg0)).trans rfl

/-! ## The first region -/

/-- After the first region its output is the reference's first hidden layer. -/
theorem W2_v25 (c : Dev nD) : W2 m ρ c (Proc.devRef .tc main_v25)
    = val_main_v30 (F := Ideal) (A0 m c) (A1 m c) (A2 m c) (A3 m c) (A4 m c) := by
  refine (W2_arr m ρ c 5).trans ?_
  rw [Layer0.arr (V1 m ρ) c]
  show layer165 (W1 m ρ c (Proc.devRef .tc main_v21)) (W1 m ρ c (Proc.devRef .tc main_arg0)) (W1 m ρ c (Proc.devRef .tc main_v22))
    (W1 m ρ c (Proc.devRef .tc main_v24)) (W1 m ρ c (Proc.devRef .tc main_v23)) = _
  rw [W1_v21, W1_arg0, W1_v22, W1_v24, W1_v23]
  exact Cert.ReferenceIdeal.Layers.layer0 _ _ _ _ _

/-! ## Carried across the first region: the edge lists and the second layer's weights -/

theorem W2_v1 (c : Dev nD) : W2 m ρ c (Proc.devRef .tc main_v1) = val_main_v1 (F := Ideal) (A1 m c) :=
  (W2_of_ne m ρ c main_v1 (by decide)).trans (W1_v1 m ρ c)
theorem W2_v3 (c : Dev nD) : W2 m ρ c (Proc.devRef .tc main_v3) = val_main_v3 (F := Ideal) (A1 m c) :=
  (W2_of_ne m ρ c main_v3 (by decide)).trans (W1_v3 m ρ c)
theorem W2_arg5 (c : Dev nD) : W2 m ρ c (Proc.devRef .tc main_arg5) = A5 m c :=
  (W2_of_ne m ρ c main_arg5 (by decide)).trans
    ((by untouched hostOps0 : W1 m ρ c (Proc.devRef .tc main_arg5) = W0 m ρ c (Proc.devRef .tc main_arg5)).trans rfl)
theorem W2_arg6 (c : Dev nD) : W2 m ρ c (Proc.devRef .tc main_arg6) = A6 m c :=
  (W2_of_ne m ρ c main_arg6 (by decide)).trans
    ((by untouched hostOps0 : W1 m ρ c (Proc.devRef .tc main_arg6) = W0 m ρ c (Proc.devRef .tc main_arg6)).trans rfl)
theorem W2_arg7 (c : Dev nD) : W2 m ρ c (Proc.devRef .tc main_arg7) = A7 m c :=
  (W2_of_ne m ρ c main_arg7 (by decide)).trans
    ((by untouched hostOps0 : W1 m ρ c (Proc.devRef .tc main_arg7) = W0 m ρ c (Proc.devRef .tc main_arg7)).trans rfl)

/-! ## The second host stretch: the neighbour means of the first hidden layer, the second layer's operands -/

theorem W3_v43 (c : Dev nD) : W3 m ρ c (Proc.devRef .tc main_v43) = val_main_v48 (F := Ideal) (A0 m c) (A1 m c) (A2 m c) (A3 m c) (A4 m c) := by
  show StableHlo.after hostOps1 (W2 m ρ c) (Proc.devRef .tc main_v43) = _
  after_results_simp
  rw [W2_v25, W2_v1, W2_v3]
  rfl

theorem W3_v44 (c : Dev nD) : W3 m ρ c (Proc.devRef .tc main_v44) = val_main_v49 (F := Ideal) (A5 m c) := by
  show StableHlo.after hostOps1 (W2 m ρ c) (Proc.devRef .tc main_v44) = _
  after_results_simp
  rw [W2_arg5]
  rfl

theorem W3_v45 (c : Dev nD) : W3 m ρ c (Proc.devRef .tc main_v45) = val_main_v54 (F := Ideal) (A7 m c) := by
  show StableHlo.after hostOps1 (W2 m ρ c) (Proc.devRef .tc main_v45) = _
  after_results_simp
  rw [W2_arg7]
  rfl

theorem W3_v46 (c : Dev nD) : W3 m ρ c (Proc.devRef .tc main_v46) = val_main_v51 (F := Ideal) (A6 m c) := by
  have e : W3 m ρ c (Proc.devRef .tc main_v46) = shapeCast S1x128 (A6 m c) shapeCasts_S128_S1x128 := by
    show StableHlo.after hostOps1 (W2 m ρ c) (Proc.devRef .tc main_v46) = _
    after_results_simp
    rw [W2_arg6]
    rfl
  rw [e]
  exact (bias_row (A6 m c)).trans rfl

theorem W3_v25 (c : Dev nD) : W3 m ρ c (Proc.devRef .tc main_v25) = val_main_v30 (F := Ideal) (A0 m c) (A1 m c) (A2 m c) (A3 m c) (A4 m c) :=
  (by untouched hostOps1 : W3 m ρ c (Proc.devRef .tc main_v25) = W2 m ρ c (Proc.devRef .tc main_v25)).trans (W2_v25 m ρ c)

/-! ## The second region -/

/-- After the second region its output is the reference's second hidden layer. -/
theorem W4_v47 (c : Dev nD) : W4 m ρ c (Proc.devRef .tc main_v47) = val_main_v57 (F := Ideal) (A0 m c) (A1 m c) (A2 m c) (A3 m c) (A4 m c) (A5 m c) (A6 m c) (A7 m c) := by
  refine (W4_arr m ρ c 5).trans ?_
  rw [Layer1.arr (V3 m ρ) c]
  show layer128 (W3 m ρ c (Proc.devRef .tc main_v43)) (W3 m ρ c (Proc.devRef .tc main_v25)) (W3 m ρ c (Proc.devRef .tc main_v44))
    (W3 m ρ c (Proc.devRef .tc main_v46)) (W3 m ρ c (Proc.devRef .tc main_v45)) = _
  rw [W3_v43, W3_v25, W3_v44, W3_v46, W3_v45]
  exact Cert.ReferenceIdeal.Layers.layer1 _ _ _ _ _ _ _ _

/-! ## Carried across the second region: the edge lists and the third layer's weights -/

theorem W4_v1 (c : Dev nD) : W4 m ρ c (Proc.devRef .tc main_v1) = val_main_v1 (F := Ideal) (A1 m c) :=
  (W4_of_ne m ρ c main_v1 (by decide)).trans
    ((by untouched hostOps1 : W3 m ρ c (Proc.devRef .tc main_v1) = W2 m ρ c (Proc.devRef .tc main_v1)).trans (W2_v1 m ρ c))
theorem W4_v3 (c : Dev nD) : W4 m ρ c (Proc.devRef .tc main_v3) = val_main_v3 (F := Ideal) (A1 m c) :=
  (W4_of_ne m ρ c main_v3 (by decide)).trans
    ((by untouched hostOps1 : W3 m ρ c (Proc.devRef .tc main_v3) = W2 m ρ c (Proc.devRef .tc main_v3)).trans (W2_v3 m ρ c))
theorem W4_arg8 (c : Dev nD) : W4 m ρ c (Proc.devRef .tc main_arg8) = A8 m c :=
  (W4_of_ne m ρ c main_arg8 (by decide)).trans
    ((by untouched hostOps1 : W3 m ρ c (Proc.devRef .tc main_arg8) = W2 m ρ c (Proc.devRef .tc main_arg8)).trans
      ((W2_of_ne m ρ c main_arg8 (by decide)).trans
        ((by untouched hostOps0 : W1 m ρ c (Proc.devRef .tc main_arg8) = W0 m ρ c (Proc.devRef .tc main_arg8)).trans rfl)))
theorem W4_arg9 (c : Dev nD) : W4 m ρ c (Proc.devRef .tc main_arg9) = A9 m c :=
  (W4_of_ne m ρ c main_arg9 (by decide)).trans
    ((by untouched hostOps1 : W3 m ρ c (Proc.devRef .tc main_arg9) = W2 m ρ c (Proc.devRef .tc main_arg9)).trans
      ((W2_of_ne m ρ c main_arg9 (by decide)).trans
        ((by untouched hostOps0 : W1 m ρ c (Proc.devRef .tc main_arg9) = W0 m ρ c (Proc.devRef .tc main_arg9)).trans rfl)))
theorem W4_arg10 (c : Dev nD) : W4 m ρ c (Proc.devRef .tc main_arg10) = A10 m c :=
  (W4_of_ne m ρ c main_arg10 (by decide)).trans
    ((by untouched hostOps1 : W3 m ρ c (Proc.devRef .tc main_arg10) = W2 m ρ c (Proc.devRef .tc main_arg10)).trans
      ((W2_of_ne m ρ c main_arg10 (by decide)).trans
        ((by untouched hostOps0 : W1 m ρ c (Proc.devRef .tc main_arg10) = W0 m ρ c (Proc.devRef .tc main_arg10)).trans rfl)))

/-! ## The third host stretch: the neighbour means of the second hidden layer, the third layer's operands -/

theorem W5_v65 (c : Dev nD) : W5 m ρ c (Proc.devRef .tc main_v65) = val_main_v75 (F := Ideal) (A0 m c) (A1 m c) (A2 m c) (A3 m c) (A4 m c) (A5 m c) (A6 m c) (A7 m c) := by
  show StableHlo.after hostOps2 (W4 m ρ c) (Proc.devRef .tc main_v65) = _
  after_results_simp
  rw [W4_v47, W4_v1, W4_v3]
  rfl

theorem W5_v66 (c : Dev nD) : W5 m ρ c (Proc.devRef .tc main_v66) = val_main_v76 (F := Ideal) (A8 m c) := by
  show StableHlo.after hostOps2 (W4 m ρ c) (Proc.devRef .tc main_v66) = _
  after_results_simp
  rw [W4_arg8]
  rfl

theorem W5_v67 (c : Dev nD) : W5 m ρ c (Proc.devRef .tc main_v67) = val_main_v81 (F := Ideal) (A10 m c) := by
  show StableHlo.after hostOps2 (W4 m ρ c) (Proc.devRef .tc main_v67) = _
  after_results_simp
  rw [W4_arg10]
  rfl

theorem W5_v68 (c : Dev nD) : W5 m ρ c (Proc.devRef .tc main_v68) = val_main_v78 (F := Ideal) (A9 m c) := by
  have e : W5 m ρ c (Proc.devRef .tc main_v68) = shapeCast S1x128 (A9 m c) shapeCasts_S128_S1x128 := by
    show StableHlo.after hostOps2 (W4 m ρ c) (Proc.devRef .tc main_v68) = _
    after_results_simp
    rw [W4_arg9]
    rfl
  rw [e]
  exact (bias_row (A9 m c)).trans rfl

theorem W5_v47 (c : Dev nD) : W5 m ρ c (Proc.devRef .tc main_v47) = val_main_v57 (F := Ideal) (A0 m c) (A1 m c) (A2 m c) (A3 m c) (A4 m c) (A5 m c) (A6 m c) (A7 m c) :=
  (by untouched hostOps2 : W5 m ρ c (Proc.devRef .tc main_v47) = W4 m ρ c (Proc.devRef .tc main_v47)).trans (W4_v47 m ρ c)

/-! ## The third region -/

/-- After the third region its output is the reference's third layer. -/
theorem W6_v69 (c : Dev nD) : W6 m ρ c (Proc.devRef .tc main_v69) = val_main_v83 (F := Ideal) (A0 m c) (A1 m c) (A2 m c) (A3 m c) (A4 m c) (A5 m c) (A6 m c) (A7 m c) (A8 m c) (A9 m c) (A10 m c) := by
  refine (W6_arr m ρ c 5).trans ?_
  rw [Layer2.arr (V5 m ρ) c]
  show affine128 (W5 m ρ c (Proc.devRef .tc main_v65)) (W5 m ρ c (Proc.devRef .tc main_v47)) (W5 m ρ c (Proc.devRef .tc main_v66))
    (W5 m ρ c (Proc.devRef .tc main_v68)) (W5 m ρ c (Proc.devRef .tc main_v67)) = _
  rw [W5_v65, W5_v47, W5_v66, W5_v68, W5_v67]
  exact Cert.ReferenceIdeal.Layers.layer2 _ _ _ _ _ _ _ _ _ _ _

/-! ## Carried across the three regions: the projection's weight and bias -/

theorem W6_arg11 (c : Dev nD) : W6 m ρ c (Proc.devRef .tc main_arg11) = A11 m c :=
  (W6_of_ne m ρ c main_arg11 (by decide)).trans
    ((by untouched hostOps2 : W5 m ρ c (Proc.devRef .tc main_arg11) = W4 m ρ c (Proc.devRef .tc main_arg11)).trans
      ((W4_of_ne m ρ c main_arg11 (by decide)).trans
        ((by untouched hostOps1 : W3 m ρ c (Proc.devRef .tc main_arg11) = W2 m ρ c (Proc.devRef .tc main_arg11)).trans
          ((W2_of_ne m ρ c main_arg11 (by decide)).trans
            ((by untouched hostOps0 : W1 m ρ c (Proc.devRef .tc main_arg11) = W0 m ρ c (Proc.devRef .tc main_arg11)).trans rfl)))))
theorem W6_arg12 (c : Dev nD) : W6 m ρ c (Proc.devRef .tc main_arg12) = A12 m c :=
  (W6_of_ne m ρ c main_arg12 (by decide)).trans
    ((by untouched hostOps2 : W5 m ρ c (Proc.devRef .tc main_arg12) = W4 m ρ c (Proc.devRef .tc main_arg12)).trans
      ((W4_of_ne m ρ c main_arg12 (by decide)).trans
        ((by untouched hostOps1 : W3 m ρ c (Proc.devRef .tc main_arg12) = W2 m ρ c (Proc.devRef .tc main_arg12)).trans
          ((W2_of_ne m ρ c main_arg12 (by decide)).trans
            ((by untouched hostOps0 : W1 m ρ c (Proc.devRef .tc main_arg12) = W0 m ρ c (Proc.devRef .tc main_arg12)).trans rfl)))))

/-! ## The last host stretch before the projection: the third layer's output carried, the padded operands -/

theorem W7_v69 (c : Dev nD) : W7 m ρ c (Proc.devRef .tc main_v69) = val_main_v83 (F := Ideal) (A0 m c) (A1 m c) (A2 m c) (A3 m c) (A4 m c) (A5 m c) (A6 m c) (A7 m c) (A8 m c) (A9 m c) (A10 m c) :=
  (by untouched hostOps3 : W7 m ρ c (Proc.devRef .tc main_v69) = W6 m ρ c (Proc.devRef .tc main_v69)).trans (W6_v69 m ρ c)

/-- The one start index of the two padding scatters: the constant 0. -/
abbrev idx0 : IVec S1 32 := broadcastInDim S1 ![] bcast_S_S1 (constantI S_ 32 0#32)

/-- W_out written at row 0 of a [128, 128] array of zeros. -/
abbrev Wp (c : Dev nD) : S128x128.Idx → EReal :=
  Host.scatter scatter_S128x128_S1_S2x128_01_n_0_0 (fun _ b => b)
    (broadcastInDim S128x128 ![] bcast_S_S128x128 (constant (F := Ideal) S_ .f32 0x00000000#32)) idx0 (A11 m c)
/-- b_out written at entry 0 of a [128] array of zeros. -/
abbrev Bp (c : Dev nD) : S128.Idx → EReal :=
  Host.scatter scatter_S128_S1_S2_0_n_0_0 (fun _ b => b)
    (broadcastInDim S128 ![] bcast_S_S128 (constant (F := Ideal) S_ .f32 0x00000000#32)) idx0 (A12 m c)

theorem W7_v76 (c : Dev nD) : W7 m ρ c (Proc.devRef .tc main_v76)
    = transpose S128x128 [1, 0] (Wp m c) transposes_S128x128_S128x128_1_0 := by
  show StableHlo.after hostOps3 (W6 m ρ c) (Proc.devRef .tc main_v76) = _
  after_results_simp
  rw [W6_arg11]

theorem W7_v77 (c : Dev nD) : W7 m ρ c (Proc.devRef .tc main_v77) = shapeCast S1x128 (Bp m c) shapeCasts_S128_S1x128 := by
  show StableHlo.after hostOps3 (W6 m ρ c) (Proc.devRef .tc main_v77) = _
  after_results_simp
  rw [W6_arg12]
  rfl

/-- Column q < 2 of the transposed padded matrix is row q of W_out, which is column q of the reference's W_outᵀ. -/
theorem padded_w (c : Dev nD) (i : Cert.ReferenceIdeal.S100000x2.Idx) (k : Fin 128) :
    W7 m ρ c (Proc.devRef .tc main_v76) (col128 (Cert.ReferenceIdeal.Layers.wide i) k)
      = val_main_v84 (F := Ideal) (A11 m c) (ridx_main_v85 i k) := by
  rw [W7_v76, val_main_v84_apply]
  have hq : (i 1).val < 2 := (i 1).isLt
  rw [transpose_apply [1, 0] (Wp m c) transposes_S128x128_S128x128_1_0 (col128 (Cert.ReferenceIdeal.Layers.wide i) k)
    (Pad.padW (fun a => match a with | ⟨0, _⟩ => ⟨(i 1).val, hq⟩ | ⟨1, _⟩ => ⟨k.val, k.isLt⟩))
    (fun b => match b with | ⟨0, _⟩ => rfl | ⟨1, _⟩ => rfl)]
  refine (Pad.read_padW _ idx0 (fun _ => rfl) (A11 m c) _).trans ?_
  exact congrArg (A11 m c) (funext fun a => by match a with | ⟨0, _⟩ => rfl | ⟨1, _⟩ => rfl)

/-- Entry q < 2 of the padded bias row is b_out's entry q, which is what the reference broadcasts. -/
theorem padded_b (c : Dev nD) (i : Cert.ReferenceIdeal.S100000x2.Idx) :
    W7 m ρ c (Proc.devRef .tc main_v77) (biasAt (Cert.ReferenceIdeal.Layers.wide i)) = val_main_v87 (F := Ideal) (A12 m c) i := by
  rw [W7_v77, val_main_v87_apply, val_main_v86_apply]
  have hq : (i 1).val < 2 := (i 1).isLt
  rw [shapeCast_apply (Bp m c) shapeCasts_S128_S1x128 (biasAt (Cert.ReferenceIdeal.Layers.wide i))
    (Pad.padB (fun a => match a with | ⟨0, _⟩ => ⟨(i 1).val, hq⟩)) (by
      rw [Shape.rowMajor_val_one, Shape.rowMajor_val_two]
      show (i 1).val = 0 * 128 + (i 1).val
      omega)]
  refine (Pad.read_padB _ idx0 (fun _ => rfl) (A12 m c) _).trans ?_
  exact congrArg (A12 m c) (funext fun a => by match a with | ⟨0, _⟩ => rfl)

/-! ## The projection's region and the final slice -/

theorem W8_v78 (c : Dev nD) : W8 m ρ c (Proc.devRef .tc main_v78)
    = proj128 (val_main_v83 (F := Ideal) (A0 m c) (A1 m c) (A2 m c) (A3 m c) (A4 m c) (A5 m c) (A6 m c) (A7 m c) (A8 m c) (A9 m c) (A10 m c)) (W7 m ρ c (Proc.devRef .tc main_v76)) (W7 m ρ c (Proc.devRef .tc main_v77)) := by
  refine (W8_arr m ρ c 3).trans ?_
  rw [Layer3.arr (V7 m ρ) c]
  show proj128 (W7 m ρ c (Proc.devRef .tc main_v69)) (W7 m ρ c (Proc.devRef .tc main_v76)) (W7 m ρ c (Proc.devRef .tc main_v77)) = _
  rw [W7_v69]

/-- THE KERNEL PROGRAM'S RESULT is the reference's last stage of the argument arrays: columns 0 and 1 of the padded
    projection of the third layer's output. -/
theorem result (c : Dev nD) : W9 m ρ c (Proc.devRef .tc main_v79) = val_main_v88 (F := Ideal) (A0 m c) (A1 m c) (A2 m c) (A3 m c) (A4 m c) (A5 m c) (A6 m c) (A7 m c) (A8 m c) (A9 m c) (A10 m c) (A11 m c) (A12 m c) := by
  have e : W9 m ρ c (Proc.devRef .tc main_v79)
      = extractStridedSlice S100000x2 ![0, 0] (W8 m ρ c (Proc.devRef .tc main_v78)) slices_S100000x128_S100000x2_0_0 := by
    show StableHlo.after hostOps4 (W8 m ρ c) (Proc.devRef .tc main_v79) = _
    after_results
  rw [e, W8_v78]
  funext i
  rw [extractStridedSlice_apply ![0, 0] _ slices_S100000x128_S100000x2_0_0 i (Cert.ReferenceIdeal.Layers.wide i) (fun a => match a with
    | ⟨0, _⟩ => by show (i 0).val = 0 + (i 0).val; omega
    | ⟨1, _⟩ => by show (i 1).val = 0 + (i 1).val; omega)]
  exact Cert.ReferenceIdeal.Layers.project _ _ _ _ _ _ _ _ _ _ _ _ _ _ _ (padded_w m ρ c) (padded_b m ρ c) i

end Cert.KernelIdeal.Chain

end
-- ==== Proof.lean ====
/-
  A three-layer GraphSAGE forward pass (mean aggregation over 1,600,000 edges into 100,000 nodes, three SAGE layers of
  width 128 over 165 input features, a linear head of width 2): the Pallas program against the plain jnp reference, over
  the extended reals.

  Both programs compute, per layer, the neighbour means on the host by the SAME operations (gather the source rows,
  scatter-add them into the destination rows, divide by max(count, 1)); these are carried as the reference's own stage
  functions and never opened. What differs is the dense part of each layer:
    * the kernel computes it in a row-tiled region, 20 blocks of 5000 rows, as
          max ((mean · Wlᵀ + x · Wrᵀ) + b) 0          (no max in the third layer),
      the operands rounded to bf16 on the way into the products, which is the identity on the extended reals;
    * the reference computes  max ((mean · Wlᵀ + b) + x · Wrᵀ) 0  with host products.
  A block product into a zero accumulator and a host product are the same sum over the contraction index, and
  (a + c) + b = (a + b) + c on the extended reals (also at the infinities), so each region's output array is the
  reference's layer stage of the argument arrays. The head: the kernel pads W_out to [128, 128] and b_out to [128] with
  zeros, projects to 128 columns in a fourth region and keeps columns 0 and 1; column q < 2 of the padded projection
  reads row q of W_out and entry q of b_out, which is the reference's  h · W_outᵀ + b_out.  No step uses finiteness of
  the inputs.

  Frames: the kernel programs' are generated; the reference's is its generated run with the result dropped. The ideal
  pass rewrote nothing, so `preserves` is `True`.
-/
import proofs.«172675_j58042188038363_1_alg».proof.Defs
import proofs.«172675_j58042188038363_1_alg».proof.Proof.Gen.Kernel
import proofs.«172675_j58042188038363_1_alg».proof.Proof.Gen.Kernel.Skeleton
import proofs.«172675_j58042188038363_1_alg».proof.Proof.Gen.Kernel.Launch
import proofs.«172675_j58042188038363_1_alg».proof.Proof.Gen.Kernel.Points
import proofs.«172675_j58042188038363_1_alg».proof.Proof.Gen.Kernel.Frame
import proofs.«172675_j58042188038363_1_alg».proof.Proof.Gen.KernelIdeal
import proofs.«172675_j58042188038363_1_alg».proof.Proof.Gen.KernelIdeal.Skeleton
import proofs.«172675_j58042188038363_1_alg».proof.Proof.Gen.KernelIdeal.Launch
import proofs.«172675_j58042188038363_1_alg».proof.Proof.Gen.KernelIdeal.Points
import proofs.«172675_j58042188038363_1_alg».proof.Proof.Gen.KernelIdeal.Frame
import proofs.«172675_j58042188038363_1_alg».proof.Proof.Gen.ReferenceIdeal
import proofs.«172675_j58042188038363_1_alg».proof.Proof.Gen.Pre_finite_inputs
import proofs.«172675_j58042188038363_1_alg».proof.Proof.Gen.ReferenceIdeal.Run
import proofs.«172675_j58042188038363_1_alg».proof.Proof.Gen.ReferenceIdeal.Read
import proofs.«172675_j58042188038363_1_alg».proof.Proof.KRun
import proofs.«172675_j58042188038363_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the reference's last stage of the argument arrays: the kernel program by the
    chain of its four regions and five host stretches, the reference by its run; the two memories agree on the
    arguments. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.Chain.result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v88_eq]
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
